-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S512x1024 : Shape := ⟨2, ![512, 1024]⟩
abbrev S50000 : Shape := ⟨1, ![50000]⟩
abbrev S100000 : Shape := ⟨1, ![100000]⟩

class Facts : Prop where
  reducesTo_S_S_d : S_.ReducesTo [] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S50000 : S_.BroadcastsInDim S50000 (![] : Fin 0 → Fin S50000.rank)
  reducesTo_S50000_S_d0 : S50000.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg6 : IVec S100000 32) (main_arg7 : IVec S100000 32) (main_v28 : IVec S_ 1) (main_v30 : IVec S100000 1) (main_v32 : IVec S100000 1) : IVec S_ 1 :=
  let main_v33 : IVec S100000 1 := andi main_v30 main_v32
  let main_c_13 : IVec S_ 1 := constantI S_ 1 1#1
  let main_v34 : IVec S_ 1 := (fun x v => Host.reduce IntOp.andi x v reducesTo_S100000_S_d0 h_S_) main_v33 main_c_13
  let main_v35 : IVec S_ 1 := andi main_v28 main_v34
  let main_c_14 : IVec S_ 32 := constantI S_ 32 0#32
  let main_v36 : IVec S100000 32 := broadcastInDim S100000 ![] bcast_S_S100000 main_c_14
  let main_v37 : IVec S100000 1 := cmpi .sge main_arg6 main_v36
  let main_c_15 : IVec S_ 32 := constantI S_ 32 1024#32
  let main_v38 : IVec S100000 32 := broadcastInDim S100000 ![] bcast_S_S100000 main_c_15
  let main_v39 : IVec S100000 1 := cmpi .slt main_arg6 main_v38
  let main_v40 : IVec S100000 1 := andi main_v37 main_v39
  let main_c_16 : IVec S_ 1 := constantI S_ 1 1#1
  let main_v41 : IVec S_ 1 := (fun x v => Host.reduce IntOp.andi x v reducesTo_S100000_S_d0 h_S_) main_v40 main_c_16
  let main_v42 : IVec S_ 1 := andi main_v35 main_v41
  let main_c_17 : IVec S_ 32 := constantI S_ 32 0#32
  let main_v43 : IVec S100000 32 := broadcastInDim S100000 ![] bcast_S_S100000 main_c_17
  let main_v44 : IVec S100000 1 := cmpi .sge main_arg7 main_v43
  let main_c_18 : IVec S_ 1 := constantI S_ 1 1#1
  let main_v45 : IVec S_ 1 := (fun x v => Host.reduce IntOp.andi x v reducesTo_S100000_S_d0 h_S_) main_v44 main_c_18
  let main_v46 : IVec S_ 1 := andi main_v42 main_v45
  main_v46

def fn_part1 {F : FTy → Type} [FloatOps F] (main_arg2 : IVec S50000 32) (main_arg3 : IVec S50000 32) (main_arg5 : IVec S100000 32) (main_arg6 : IVec S100000 32) (main_arg7 : IVec S100000 32) (main_v12 : IVec S_ 1) (main_v15 : IVec S100000 1) (main_c_5 : IVec S_ 1) : IVec S_ 1 :=
  let main_v16 : IVec S_ 1 := (fun x v => Host.reduce IntOp.andi x v reducesTo_S100000_S_d0 h_S_) main_v15 main_c_5
  let main_v17 : IVec S_ 1 := andi main_v12 main_v16
  let main_c_6 : IVec S_ 32 := constantI S_ 32 0#32
  let main_v18 : IVec S50000 32 := broadcastInDim S50000 ![] bcast_S_S50000 main_c_6
  let main_v19 : IVec S50000 1 := cmpi .sge main_arg2 main_v18
  let main_c_7 : IVec S_ 32 := constantI S_ 32 1024#32
  let main_v20 : IVec S50000 32 := broadcastInDim S50000 ![] bcast_S_S50000 main_c_7
  let main_v21 : IVec S50000 1 := cmpi .slt main_arg2 main_v20
  let main_v22 : IVec S50000 1 := andi main_v19 main_v21
  let main_c_8 : IVec S_ 1 := constantI S_ 1 1#1
  let main_v23 : IVec S_ 1 := (fun x v => Host.reduce IntOp.andi x v reducesTo_S50000_S_d0 h_S_) main_v22 main_c_8
  let main_v24 : IVec S_ 1 := andi main_v17 main_v23
  let main_c_9 : IVec S_ 32 := constantI S_ 32 0#32
  let main_v25 : IVec S50000 32 := broadcastInDim S50000 ![] bcast_S_S50000 main_c_9
  let main_v26 : IVec S50000 1 := cmpi .sge main_arg3 main_v25
  let main_c_10 : IVec S_ 1 := constantI S_ 1 1#1
  let main_v27 : IVec S_ 1 := (fun x v => Host.reduce IntOp.andi x v reducesTo_S50000_S_d0 h_S_) main_v26 main_c_10
  let main_v28 : IVec S_ 1 := andi main_v24 main_v27
  let main_c_11 : IVec S_ 32 := constantI S_ 32 0#32
  let main_v29 : IVec S100000 32 := broadcastInDim S100000 ![] bcast_S_S100000 main_c_11
  let main_v30 : IVec S100000 1 := cmpi .sge main_arg5 main_v29
  let main_c_12 : IVec S_ 32 := constantI S_ 32 1024#32
  let main_v31 : IVec S100000 32 := broadcastInDim S100000 ![] bcast_S_S100000 main_c_12
  let main_v32 : IVec S100000 1 := cmpi .slt main_arg5 main_v31
  fn_part2 (F := F) main_arg6 main_arg7 main_v28 main_v30 main_v32

def fn {F : FTy → Type} [FloatOps F] (main_arg0 : FVec F S_ .f32) (main_arg1 : FVec F S512x1024 .f32) (main_arg2 : IVec S50000 32) (main_arg3 : IVec S50000 32) (main_arg4 : FVec F S50000 .f32) (main_arg5 : IVec S100000 32) (main_arg6 : IVec S100000 32) (main_arg7 : IVec S100000 32) (main_arg8 : FVec F S100000 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S512x1024 .f32 := Host.absf main_arg1
  let main_cst_0 : FVec F S_ .f32 := constant S_ .f32 0x7F800000#32
  let main_v4 : FVec F S512x1024 .f32 := broadcastInDim S512x1024 ![] bcast_S_S512x1024 main_cst_0
  let main_v5 : IVec S512x1024 1 := cmpf .olt main_v3 main_v4
  let main_c_1 : IVec S_ 1 := constantI S_ 1 1#1
  let main_v6 : IVec S_ 1 := (fun x v => Host.reduce IntOp.andi x v reducesTo_S512x1024_S_d0_1 h_S_) main_v5 main_c_1
  let main_v7 : IVec S_ 1 := andi main_v2 main_v6
  let main_v8 : FVec F S50000 .f32 := Host.absf main_arg4
  let main_cst_2 : FVec F S_ .f32 := constant S_ .f32 0x7F800000#32
  let main_v9 : FVec F S50000 .f32 := broadcastInDim S50000 ![] bcast_S_S50000 main_cst_2
  let main_v10 : IVec S50000 1 := cmpf .olt main_v8 main_v9
  let main_c_3 : IVec S_ 1 := constantI S_ 1 1#1
  let main_v11 : IVec S_ 1 := (fun x v => Host.reduce IntOp.andi x v reducesTo_S50000_S_d0 h_S_) main_v10 main_c_3
  let main_v12 : IVec S_ 1 := andi main_v7 main_v11
  let main_v13 : FVec F S100000 .f32 := Host.absf main_arg8
  let main_cst_4 : FVec F S_ .f32 := constant S_ .f32 0x7F800000#32
  let main_v14 : FVec F S100000 .f32 := broadcastInDim S100000 ![] bcast_S_S100000 main_cst_4
  let main_v15 : IVec S100000 1 := cmpf .olt main_v13 main_v14
  let main_c_5 : IVec S_ 1 := constantI S_ 1 1#1
  fn_part1 (F := F) main_arg2 main_arg3 main_arg5 main_arg6 main_arg7 main_v12 main_v15 main_c_5
-- ==== Kernel.lean ====
abbrev S_ : Shape := ⟨0, ![]⟩
abbrev S512x1024 : Shape := ⟨2, ![512, 1024]⟩
abbrev S50000 : Shape := ⟨1, ![50000]⟩
abbrev S100000 : Shape := ⟨1, ![100000]⟩
abbrev S100352 : Shape := ⟨1, ![100352]⟩
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 31
  | .vmem => 18
  | .smem => 0
  | _ => 0

abbrev bufTy : (tb : Table) → Fin (tcTables nBuf tb) → BufTy
  | .hbm, ⟨0, _⟩ => ⟨S_, .f32⟩
  | .hbm, ⟨1, _⟩ => ⟨S512x1024, .f32⟩
  | .hbm, ⟨2, _⟩ => ⟨S50000, .i32⟩
  | .hbm, ⟨3, _⟩ => ⟨S50000, .i32⟩
  | .hbm, ⟨4, _⟩ => ⟨S50000, .f32⟩
  | .hbm, ⟨5, _⟩ => ⟨S100000, .i32⟩
  | .hbm, ⟨6, _⟩ => ⟨S100000, .i32⟩
  | .hbm, ⟨7, _⟩ => ⟨S100000, .i32⟩
  | .hbm, ⟨8, _⟩ => ⟨S100000, .f32⟩
  | .hbm, ⟨9, _⟩ => ⟨S_, .i32⟩
  | .hbm, ⟨10, _⟩ => ⟨S_, .i32⟩
  | .hbm, ⟨11, _⟩ => ⟨S100352, .i32⟩
  | .hbm, ⟨12, _⟩ => ⟨S_, .i32⟩
  | .hbm, ⟨13, _⟩ => ⟨S_, .i32⟩
  | .hbm, ⟨14, _⟩ => ⟨S100352, .i32⟩
  | .hbm, ⟨15, _⟩ => ⟨S_, .f32⟩
  | .hbm, ⟨16, _⟩ => ⟨S_, .f32⟩
  | .hbm, ⟨17, _⟩ => ⟨S100352, .f32⟩
  | .hbm, ⟨18, _⟩ => ⟨S_, .i32⟩
  | .hbm, ⟨19, _⟩ => ⟨S_, .i32⟩
  | .hbm, ⟨20, _⟩ => ⟨S100352, .i32⟩
  | .hbm, ⟨21, _⟩ => ⟨S_, .i32⟩
  | .hbm, ⟨22, _⟩ => ⟨S_, .i32⟩
  | .hbm, ⟨23, _⟩ => ⟨S100352, .i32⟩
  | .hbm, ⟨24, _⟩ => ⟨S_, .i32⟩
  | .hbm, ⟨25, _⟩ => ⟨S_, .i32⟩
  | .hbm, ⟨26, _⟩ => ⟨S100352, .i32⟩
  | .hbm, ⟨27, _⟩ => ⟨S_, .f32⟩
  | .hbm, ⟨28, _⟩ => ⟨S_, .f32⟩
  | .hbm, ⟨29, _⟩ => ⟨S100352, .f32⟩
  | .hbm, ⟨30, _⟩ => ⟨S512x1024, .f32⟩
  | .local _ .vmem, ⟨0, _⟩ => ⟨S256x1024, .f32⟩
  | .local _ .vmem, ⟨1, _⟩ => ⟨S1024, .i32⟩
  | .local _ .vmem, ⟨2, _⟩ => ⟨S1024, .i32⟩
  | .local _ .vmem, ⟨3, _⟩ => ⟨S1024, .i32⟩
  | .local _ .vmem, ⟨4, _⟩ => ⟨S1024, .i32⟩
  | .local _ .vmem, ⟨5, _⟩ => ⟨S1024, .f32⟩
  | .local _ .vmem, ⟨6, _⟩ => ⟨S1024, .f32⟩
  | .local _ .vmem, ⟨7, _⟩ => ⟨S1024, .i32⟩
  | .local _ .vmem, ⟨8, _⟩ => ⟨S1024, .i32⟩
  | .local _ .vmem, ⟨9, _⟩ => ⟨S1024, .i32⟩
  | .local _ .vmem, ⟨10, _⟩ => ⟨S1024, .i32⟩
  | .local _ .vmem, ⟨11, _⟩ => ⟨S1024, .i32⟩
  | .local _ .vmem, ⟨12, _⟩ => ⟨S1024, .i32⟩
  | .local _ .vmem, ⟨13, _⟩ => ⟨S1024, .f32⟩
  | .local _ .vmem, ⟨14, _⟩ => ⟨S1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_cst : Ref sig .tc := ⟨.hbm, 15, rfl⟩
abbrev main_call2_v0 : Ref sig .tc := ⟨.hbm, 16, rfl⟩
abbrev main_v2 : Ref sig .tc := ⟨.hbm, 17, rfl⟩
abbrev main_c_1 : Ref sig .tc := ⟨.hbm, 18, rfl⟩
abbrev main_call3_v0 : Ref sig .tc := ⟨.hbm, 19, rfl⟩
abbrev main_v3 : Ref sig .tc := ⟨.hbm, 20, rfl⟩
abbrev main_c_2 : Ref sig .tc := ⟨.hbm, 21, rfl⟩
abbrev main_call4_v0 : Ref sig .tc := ⟨.hbm, 22, rfl⟩
abbrev main_v4 : Ref sig .tc := ⟨.hbm, 23, rfl⟩
abbrev main_c_3 : Ref sig .tc := ⟨.hbm, 24, rfl⟩
abbrev main_call5_v0 : Ref sig .tc := ⟨.hbm, 25, rfl⟩
abbrev main_v5 : Ref sig .tc := ⟨.hbm, 26, rfl⟩
abbrev main_cst_4 : Ref sig .tc := ⟨.hbm, 27, rfl⟩
abbrev main_call6_v0 : Ref sig .tc := ⟨.hbm, 28, rfl⟩
abbrev main_v6 : Ref sig .tc := ⟨.hbm, 29, rfl⟩
abbrev main_v7 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 98], ![false, false]⟩

def k0_cond3 (i : grid0.Coords) : BitVec 1 :=
  let arg1 : BitVec 32 := BitVec.ofNat 32 (i 1).val
  let c97_i32 : BitVec 32 := 97#32
  let v49 : BitVec 1 := Scalar.cmpi .eq arg1 c97_i32
  let v50 : BitVec 32 := Scalar.extui v49
  let c0_i32_14 : BitVec 32 := 0#32
  let v51 : BitVec 1 := Scalar.cmpi .ne v50 c0_i32_14
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  pads_S50000_S100352_0503520 : S50000.Pads (![0] : Fin 1 → Nat) ![50352] ![0] S100352
  h_S_ : 0 < S_.numel
  pads_S100000_S100352_03520 : S100000.Pads (![0] : Fin 1 → Nat) ![352] ![0] S100352
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  iota_S1024x1024_d0_w32 : S1024x1024.Iotas .tc 32 [0]
  iota_S1024x1024_d1_w32 : S1024x1024.Iotas .tc 32 [1]
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S1024x1024 : S1x1024.Broadcasts S1024x1024
  shapeCasts_S1x1024_S1x1024 : S1x1024.ShapeCasts S1x1024
  shapeCasts_S1024_S1024x1 : S1024.ShapeCasts S1024x1
  broadcasts_S1024x1_S1024x1024 : S1024x1.Broadcasts S1024x1024
  natLt_1_32 : 1 < 32
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S512x1024.size a
  hwx0_0 : ∀ i : grid0.Coords, EltTy.bits .f32 = 32 ∨ (Rect.block (s := S512x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S100352.size a
  hwx0_1 : ∀ i : grid0.Coords, EltTy.bits .i32 = 32 ∨ (Rect.block (s := S100352) S1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S100352.size a
  hwx0_2 : ∀ i : grid0.Coords, EltTy.bits .i32 = 32 ∨ (Rect.block (s := S100352) S1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S100352.size a
  hwx0_3 : ∀ i : grid0.Coords, EltTy.bits .f32 = 32 ∨ (Rect.block (s := S100352) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S100352.size a
  hwx0_4 : ∀ i : grid0.Coords, EltTy.bits .i32 = 32 ∨ (Rect.block (s := S100352) S1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S100352.size a
  hwx0_5 : ∀ i : grid0.Coords, EltTy.bits .i32 = 32 ∨ (Rect.block (s := S100352) S1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S100352.size a
  hwx0_6 : ∀ i : grid0.Coords, EltTy.bits .i32 = 32 ∨ (Rect.block (s := S100352) S1024.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S100352.size a
  hwx0_7 : ∀ i : grid0.Coords, EltTy.bits .f32 = 32 ∨ (Rect.block (s := S100352) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S512x1024.size a
  hwx0_8 : ∀ i : grid0.Coords, EltTy.bits .f32 = 32 ∨ (Rect.block (s := S512x1024) S256x1024.size (cc0_transform_8 i) (hinb0_8 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg1) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond3 i == 1#1) | ⟨_ + 9, h⟩ => absurd h (Nat.not_lt.2 (Nat.le_add_left _ _))

class Facts : Prop extends Facts₀ where

variable [Facts]
-- ==== ReferenceIdeal.lean ====
abbrev S_ : Shape := ⟨0, ![]⟩
abbrev S512x1024 : Shape := ⟨2, ![512, 1024]⟩
abbrev S50000 : Shape := ⟨1, ![50000]⟩
abbrev S100000 : Shape := ⟨1, ![100000]⟩
abbrev S50000x1 : Shape := ⟨2, ![50000, 1]⟩
abbrev S512x50000 : Shape := ⟨2, ![512, 50000]⟩
abbrev S1x50000 : Shape := ⟨2, ![1, 50000]⟩
abbrev S100000x1 : Shape := ⟨2, ![100000, 1]⟩
abbrev S512x100000 : Shape := ⟨2, ![512, 100000]⟩
abbrev S1x100000 : Shape := ⟨2, ![1, 100000]⟩

abbrev nBuf : Space → Nat
  | .hbm => 63
  | .vmem => 0
  | .smem => 0
  | _ => 0

abbrev bufTy : (tb : Table) → Fin (tcTables nBuf tb) → BufTy
  | .hbm, ⟨0, _⟩ => ⟨S_, .f32⟩
  | .hbm, ⟨1, _⟩ => ⟨S512x1024, .f32⟩
  | .hbm, ⟨2, _⟩ => ⟨S50000, .i32⟩
  | .hbm, ⟨3, _⟩ => ⟨S50000, .i32⟩
  | .hbm, ⟨4, _⟩ => ⟨S50000, .f32⟩
  | .hbm, ⟨5, _⟩ => ⟨S100000, .i32⟩
  | .hbm, ⟨6, _⟩ => ⟨S100000, .i32⟩
  | .hbm, ⟨7, _⟩ => ⟨S100000, .i32⟩
  | .hbm, ⟨8, _⟩ => ⟨S100000, .f32⟩
  | .hbm, ⟨9, _⟩ => ⟨S_, .i32⟩
  | .hbm, ⟨10, _⟩ => ⟨S50000, .i32⟩
  | .hbm, ⟨11, _⟩ => ⟨S50000, .i1⟩
  | .hbm, ⟨12, _⟩ => ⟨S_, .i32⟩
  | .hbm, ⟨13, _⟩ => ⟨S50000, .i32⟩
  | .hbm, ⟨14, _⟩ => ⟨S50000, .i32⟩
  | .hbm, ⟨15, _⟩ => ⟨S50000, .i32⟩
  | .hbm, ⟨16, _⟩ => ⟨S50000x1, .i32⟩
  | .hbm, ⟨17, _⟩ => ⟨S512x50000, .f32⟩
  | .hbm, ⟨18, _⟩ => ⟨S1x50000, .f32⟩
  | .hbm, ⟨19, _⟩ => ⟨S512x50000, .f32⟩
  | .hbm, ⟨20, _⟩ => ⟨S512x50000, .f32⟩
  | .hbm, ⟨21, _⟩ => ⟨S_, .i32⟩
  | .hbm, ⟨22, _⟩ => ⟨S100000, .i32⟩
  | .hbm, ⟨23, _⟩ => ⟨S100000, .i1⟩
  | .hbm, ⟨24, _⟩ => ⟨S_, .i32⟩
  | .hbm, ⟨25, _⟩ => ⟨S100000, .i32⟩
  | .hbm, ⟨26, _⟩ => ⟨S100000, .i32⟩
  | .hbm, ⟨27, _⟩ => ⟨S100000, .i32⟩
  | .hbm, ⟨28, _⟩ => ⟨S100000x1, .i32⟩
  | .hbm, ⟨29, _⟩ => ⟨S512x100000, .f32⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S100000, .i32⟩
  | .hbm, ⟨37, _⟩ => ⟨S100000x1, .i32⟩
  | .hbm, ⟨38, _⟩ => ⟨S512x100000, .f32⟩
  | .hbm, ⟨39, _⟩ => ⟨S512x100000, .f32⟩
  | .hbm, ⟨40, _⟩ => ⟨S1x100000, .f32⟩
  | .hbm, ⟨41, _⟩ => ⟨S512x100000, .f32⟩
  | .hbm, ⟨42, _⟩ => ⟨S512x100000, .f32⟩
  | .hbm, ⟨43, _⟩ => ⟨S_, .f32⟩
  | .hbm, ⟨44, _⟩ => ⟨S512x1024, .f32⟩
  | .hbm, ⟨45, _⟩ => ⟨S_, .i32⟩
  | .hbm, ⟨46, _⟩ => ⟨S50000, .i32⟩
  | .hbm, ⟨47, _⟩ => ⟨S50000, .i1⟩
  | .hbm, ⟨48, _⟩ => ⟨S_, .i32⟩
  | .hbm, ⟨49, _⟩ => ⟨S50000, .i32⟩
  | .hbm, ⟨50, _⟩ => ⟨S50000, .i32⟩
  | .hbm, ⟨51, _⟩ => ⟨S50000, .i32⟩
  | .hbm, ⟨52, _⟩ => ⟨S50000x1, .i32⟩
  | .hbm, ⟨53, _⟩ => ⟨S512x1024, .f32⟩
  | .hbm, ⟨54, _⟩ => ⟨S_, .i32⟩
  | .hbm, ⟨55, _⟩ => ⟨S100000, .i32⟩
  | .hbm, ⟨56, _⟩ => ⟨S100000, .i1⟩
  | .hbm, ⟨57, _⟩ => ⟨S_, .i32⟩
  | .hbm, ⟨58, _⟩ => ⟨S100000, .i32⟩
  | .hbm, ⟨59, _⟩ => ⟨S100000, .i32⟩
  | .hbm, ⟨60, _⟩ => ⟨S100000, .i32⟩
  | .hbm, ⟨61, _⟩ => ⟨S100000x1, .i32⟩
  | .hbm, ⟨62, _⟩ => ⟨S512x1024, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S50000_S1x50000_1 : S50000.BroadcastsInDim S1x50000 (![1] : Fin 1 → Fin S1x50000.rank)
  bcast_S1x50000_S512x50000_0_1 : S1x50000.BroadcastsInDim S512x50000 (![0, 1] : Fin 2 → Fin S512x50000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000_S1x100000_1 : S100000.BroadcastsInDim S1x100000 (![1] : Fin 1 → Fin S1x100000.rank)
  bcast_S1x100000_S512x100000_0_1 : S1x100000.BroadcastsInDim S512x100000 (![0, 1] : Fin 2 → Fin S512x100000.rank)
  bcast_S_S512x1024 : S_.BroadcastsInDim S512x1024 (![] : Fin 0 → Fin S512x1024.rank)
  gather_S512x1024_S50000x1_S512x50000_0_1_n_n_1_1_5121_wf : GatherDims.WF S512x1024 S50000x1 S512x50000 [0] [1] [] [1] [] 1 ![512, 1]
  gather_S512x1024_S100000x1_S512x100000_0_1_n_n_1_1_5121_wf : GatherDims.WF S512x1024 S100000x1 S512x100000 [0] [1] [] [1] [] 1 ![512, 1]
  scatter_S512x1024_S50000x1_S512x50000_0_1_1_1_wf : ScatterDims.WF S512x1024 S50000x1 S512x50000 [0] [1] [1] 1
  scatter_S512x1024_S100000x1_S512x100000_0_1_1_1_wf : ScatterDims.WF S512x1024 S100000x1 S512x100000 [0] [1] [1] 1

variable [Facts₀]

def gather_S512x1024_S50000x1_S512x50000_0_1_n_n_1_1_5121 : GatherDims S512x1024 S50000x1 S512x50000 where
  offsetDims := [0]
  collapsedSliceDims := [1]
  operandBatchingDims := []
  startIndicesBatchingDims := []
  startIndexMap := [1]
  indexVectorDim := 1
  sliceSizes := ![512, 1]
  wf := gather_S512x1024_S50000x1_S512x50000_0_1_n_n_1_1_5121_wf
def gather_S512x1024_S100000x1_S512x100000_0_1_n_n_1_1_5121 : GatherDims S512x1024 S100000x1 S512x100000 where
  offsetDims := [0]
  collapsedSliceDims := [1]
  operandBatchingDims := []
  startIndicesBatchingDims := []
  startIndexMap := [1]
  indexVectorDim := 1
  sliceSizes := ![512, 1]
  wf := gather_S512x1024_S100000x1_S512x100000_0_1_n_n_1_1_5121_wf
def scatter_S512x1024_S50000x1_S512x50000_0_1_1_1 : ScatterDims S512x1024 S50000x1 S512x50000 where
  updateWindowDims := [0]
  insertedWindowDims := [1]
  scatterDimsToOperandDims := [1]
  indexVectorDim := 1
  wf := scatter_S512x1024_S50000x1_S512x50000_0_1_1_1_wf
def scatter_S512x1024_S100000x1_S512x100000_0_1_1_1 : ScatterDims S512x1024 S100000x1 S512x100000 where
  updateWindowDims := [0]
  insertedWindowDims := [1]
  scatterDimsToOperandDims := [1]
  indexVectorDim := 1
  wf := scatter_S512x1024_S100000x1_S512x100000_0_1_1_1_wf

class Facts : Prop extends Facts₀ where

variable [Facts]
-- ==== Proof.K.Data.lean ====
import proofs.«415795_j59304908423466_2_alg».proof.Proof.Gen.Kernel.Skeleton
import proofs.«415795_j59304908423466_2_alg».proof.Proof.Gen.Kernel.Frame
/-
  The idealized kernel's accumulator, point by point, and the pipeline's proof data — for every float instance.

  The grid is (2, 98): point `t` is batch tile `t / 98`, reaction tile `r = t % 98`. At each point the body
  * resets the scratch accumulator to zero when `r = 0`,
  * adds the first-order tile's contribution when `r < 49` (the 50000 first-order reactions fill 49 tiles of 1024),
  * adds the second-order tile's contribution,
  and copies the accumulator into the result's block when `r = 97`.  `accStep` is that update as a function of the
  accumulator found and the eight input blocks of the point; `accAt` its value after each point, by recursion on the point.
-/

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The accumulator after one grid point whose reaction tile is `r`: reset at the first tile, the first-order tile's
    scatter added while `r < 49`, the second-order tile's scatter added always. -/
def accStep (r : ℕ) (acc y : Vec F S256x1024 .f32) (ir1 ip1 : Vec F S1024 .i32) (k1 : Vec F S1024 .f32)
    (i20 i21 ip2 : Vec F S1024 .i32) (k2 : Vec F S1024 .f32) : Vec F S256x1024 .f32 :=
  k0_pay1 (k0_pay5 y i20 i21 k2) (k0_pay6 (F := F) ip2)
    (if r < 49 then k0_pay4 y ir1 ip1 k1 (if r = 0 then k0_pay2 else acc) else (if r = 0 then k0_pay2 else acc))

variable (m : (ℓ : Loc nD τ sig) → Buf (Elt F) ℓ) (ρ : Dev nD → PrngReg)

/-- The reaction tile of grid point `t`. -/
abbrev rOf (t : Fin cfg0.N) : ℕ := (grid0.coords t 1).val

/-- The eight input blocks of point `t`, at their literal types. -/
abbrev yB (c : Dev nD) (t : Fin cfg0.N) : Vec F S256x1024 .f32 := iblk m c 0 t
abbrev ir1B (c : Dev nD) (t : Fin cfg0.N) : Vec F S1024 .i32 := iblk m c 1 t
abbrev ip1B (c : Dev nD) (t : Fin cfg0.N) : Vec F S1024 .i32 := iblk m c 2 t
abbrev k1B (c : Dev nD) (t : Fin cfg0.N) : Vec F S1024 .f32 := iblk m c 3 t
abbrev i20B (c : Dev nD) (t : Fin cfg0.N) : Vec F S1024 .i32 := iblk m c 4 t
abbrev i21B (c : Dev nD) (t : Fin cfg0.N) : Vec F S1024 .i32 := iblk m c 5 t
abbrev ip2B (c : Dev nD) (t : Fin cfg0.N) : Vec F S1024 .i32 := iblk m c 6 t
abbrev k2B (c : Dev nD) (t : Fin cfg0.N) : Vec F S1024 .f32 := iblk m c 7 t

/-- One point's update at the point's own blocks. -/
def stepAt (c : Dev nD) (t : Fin cfg0.N) (acc : Vec F S256x1024 .f32) : Vec F S256x1024 .f32 :=
  accStep (rOf t) acc (yB m c t) (ir1B m c t) (ip1B m c t) (k1B m c t) (i20B m c t) (i21B m c t) (ip2B m c t) (k2B m c t)

/-- The accumulator after point `n`. -/
def accAt (c : Dev nD) : (n : ℕ) → n < cfg0.N → Vec F S256x1024 .f32
  | 0, h => stepAt m c ⟨0, h⟩ k0_pay2
  | n + 1, h => stepAt m c ⟨n + 1, h⟩ (accAt c n (Nat.lt_of_succ_lt h))

theorem accAt_zero (c : Dev nD) (h : 0 < cfg0.N) : accAt m c 0 h = stepAt m c ⟨0, h⟩ k0_pay2 := rfl
theorem accAt_succ (c : Dev nD) (n : ℕ) (h : n + 1 < cfg0.N) :
    accAt m c (n + 1) h = stepAt m c ⟨n + 1, h⟩ (accAt m c n (Nat.lt_of_succ_lt h)) := rfl

/-- The scratch accumulator as a memref. -/
abbrev scM : Memref sig .tc .vmem S256x1024 .f32 := Memref.whole cc0_scratch0

/-- The region invariant before position `n`: before the first point the scratch holds anything; afterwards it holds
    the accumulator the point before left. The generator register is at some state throughout. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

/-- The proof data of the pipeline on core `c`: the arrays as the region finds them; after the body each input's buffer
    at its block and the result's at the accumulator after that point (read only where the block is written back, at the
    last reaction tile); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_8 (c : Dev nD) (t : Fin cfg0.N) : (dats m 0 c).after 8 t = accAt m c t.val t.isLt := by dsimp only [dats]

end Cert.Proof.K

end
-- ==== Proof.K.Body.lean ====
import proofs.«415795_j59304908423466_2_alg».proof.Proof.K.Data
import Idealize.ShloMosaic.Lib.Pipeline.Value
/-
  The idealized kernel's body at every grid point, the body obligation, the frame run and the frame — for every float
  instance.  The body has three conditions on the reaction tile r of the point (r = 0: reset the accumulator; r < 49: add
  the first-order tile; r = 97: copy the accumulator to the result's block); the grid meets four combinations of them, and
  in each the body runs to the accumulator of `accStep` in the scratch, the inputs untouched, and the result's staging
  buffer untouched except at r = 97, where it receives the accumulator.
-/

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions, from the grid coordinates -/

/-- `r = 0`: the accumulator is reset. -/
abbrev cond0 (i : grid0.Coords) : Prop :=
  (Scalar.cmpi .ne (Scalar.extui (Scalar.cmpi .eq (BitVec.ofNat 32 (i 1).val) 0#32)) 0#32) = 1#1
/-- `r < 49`: the first-order tile is real. -/
abbrev cond1 (i : grid0.Coords) : Prop :=
  (Scalar.cmpi .ne (Scalar.extui (Scalar.cmpi .slt (BitVec.ofNat 32 (i 1).val) 49#32)) 0#32) = 1#1
/-- `r = 97`: the accumulator is copied to the result's block. -/
abbrev cond2 (i : grid0.Coords) : Prop := k0_cond3 i = 1#1

theorem hcond0 : ∀ t : Fin cfg0.N, cond0 (grid0.coords t) ↔ rOf t = 0 :=
  (by decide +kernel : ∀ t : Fin grid0.N, cond0 (grid0.coords t) ↔ (grid0.coords t 1).val = 0)
theorem hcond1 : ∀ t : Fin cfg0.N, cond1 (grid0.coords t) ↔ rOf t < 49 :=
  (by decide +kernel : ∀ t : Fin grid0.N, cond1 (grid0.coords t) ↔ (grid0.coords t 1).val < 49)
theorem hcond2 : ∀ t : Fin cfg0.N, cond2 (grid0.coords t) ↔ rOf t = 97 :=
  (by decide +kernel : ∀ t : Fin grid0.N, cond2 (grid0.coords t) ↔ (grid0.coords t 1).val = 97)

/-- Point `t`'s reaction tile is `t mod 98`. -/
theorem rOf_mod : ∀ t : Fin cfg0.N, rOf t = t.val % 98 :=
  (by decide +kernel : ∀ t : Fin grid0.N, (grid0.coords t 1).val = t.val % 98)

/-! ## Whole-buffer stores and loads -/

/-- The whole-buffer rectangle's offsets are zero. -/
theorem off2 : (![0, 0] : Fin 2 → ℕ) = fun _ => 0 := funext fun a => by fin_cases a <;> rfl
theorem off1 : (![0] : Fin 1 → ℕ) = fun _ => 0 := funext fun a => by fin_cases a <;> rfl

/-- A list of stores whose last is through the whole-buffer rectangle covers every index. -/
theorem cover_head (w : Vec F S256x1024 .f32) (L : List (View.Piece (Elt F) S256x1024 .f32)) (y : S256x1024.Idx) :
    ∃ pc ∈ ((⟨Rect.unit (s := S256x1024) ![0, 0] S256x1024.size inb_S256x1024_S256x1024_0_0, w⟩ : View.Piece (Elt F) S256x1024 .f32) :: L), y ∈ pc.1.set := by
  obtain ⟨pc, hm, hy⟩ := View.cover_of_tiled [(⟨Rect.unit (s := S256x1024) ![0, 0] S256x1024.size inb_S256x1024_S256x1024_0_0, w⟩ : View.Piece (Elt F) S256x1024 .f32)] S256x1024.size (by rfl) y
  rw [List.mem_singleton] at hm; subst hm
  exact ⟨_, List.mem_cons_self, hy⟩

/-! ## The body's run in each of the four cases -/

/-- First reaction tile (r = 0): the scratch, at anything, is reset, then both tiles' contributions are added. -/
theorem run_first (c : Dev nD) (i : grid0.Coords) (arg2 : Memref sig .tc .vmem S256x1024 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1024 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .i32) (harg8 : arg8.IsWhole) (arg9 : Memref sig .tc .vmem S1024 .f32) (harg9 : arg9.IsWhole) (arg10 : Memref sig .tc .vmem S256x1024 .f32) (harg10 : arg10.IsWhole) (arg11 : Memref sig .tc .vmem S256x1024 .f32) (harg11 : arg11.IsWhole)
    (hc0 : cond0 i) (hc1 : cond1 i) (hc2 : ¬cond2 i) (x0 : Vec F S256x1024 .f32) (x1 x2 : Vec F S1024 .i32) (x3 : Vec F S1024 .f32) (x4 x5 x6 : Vec F S1024 .i32) (x7 : Vec F S1024 .f32) (xo : Vec F S256x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo
            ∗ owns (c : Thread nD τ) arg11 fullShare (k0_pay1 (k0_pay5 x0 x4 x5 x7) (k0_pay6 (F := F) x6) (k0_pay4 x0 x1 x2 x3 (k0_pay2 (F := F))))) -∗ K ⟨⟩))
      ⊢ wp frame (wpE (defs₀ (F := F)) Variants.none c none) Set.univ (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%da, %fa, -, HA⟩, Hk⟩
  subst hf0 hf1 hf2 hf3 hf4 hf5 hf6 hf7
  subst hfo
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HO]
  · iexists fo; isplitr; · ipureintro; rfl
    iexact HO
  iexists _; isplitr
  swap; · iexact HA
  ipureintro
  sl_unfold_words
  rw [View.read_writes_eq_canon _ _ _ (cover_head _ _), View.canon_cons_unit_zero (S := S256x1024) off2]
  simp only [View.readCov_cons_toLoadRect, View.readAt_eq_ld, View.ld_unit_zero (S := S256x1024) off2, View.ld_unit_zero (S := S1024) off1]

/-- A later tile below 49: both tiles' contributions are added to the accumulator found. -/
theorem run_low (c : Dev nD) (i : grid0.Coords) (arg2 : Memref sig .tc .vmem S256x1024 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1024 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .i32) (harg8 : arg8.IsWhole) (arg9 : Memref sig .tc .vmem S1024 .f32) (harg9 : arg9.IsWhole) (arg10 : Memref sig .tc .vmem S256x1024 .f32) (harg10 : arg10.IsWhole) (arg11 : Memref sig .tc .vmem S256x1024 .f32) (harg11 : arg11.IsWhole)
    (hc0 : ¬cond0 i) (hc1 : cond1 i) (hc2 : ¬cond2 i) (x0 : Vec F S256x1024 .f32) (x1 x2 : Vec F S1024 .i32) (x3 : Vec F S1024 .f32) (x4 x5 x6 : Vec F S1024 .i32) (x7 : Vec F S1024 .f32) (xo xa : Vec F S256x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ owns (c : Thread nD τ) arg11 fullShare xa
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo
            ∗ owns (c : Thread nD τ) arg11 fullShare (k0_pay1 (k0_pay5 x0 x4 x5 x7) (k0_pay6 (F := F) x6) (k0_pay4 x0 x1 x2 x3 xa))) -∗ K ⟨⟩))
      ⊢ wp frame (wpE (defs₀ (F := F)) Variants.none c none) Set.univ (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fa, %hfa, HA⟩, Hk⟩
  subst hf0 hf1 hf2 hf3 hf4 hf5 hf6 hf7
  subst hfo hfa
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HO]
  · iexists fo; isplitr; · ipureintro; rfl
    iexact HO
  iexists _; isplitr
  swap; · iexact HA
  ipureintro
  sl_unfold_words
  rw [View.read_writes_eq_canon _ _ _ (cover_head _ _), View.canon_cons_unit_zero (S := S256x1024) off2]
  simp only [View.readCov_cons_toLoadRect, View.readAt_eq_ld, View.ld_unit_zero (S := S256x1024) off2, View.ld_unit_zero (S := S1024) off1]

/-- A tile from 49 to 96: only the second-order tile's contribution is added. -/
theorem run_mid (c : Dev nD) (i : grid0.Coords) (arg2 : Memref sig .tc .vmem S256x1024 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1024 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .i32) (harg8 : arg8.IsWhole) (arg9 : Memref sig .tc .vmem S1024 .f32) (harg9 : arg9.IsWhole) (arg10 : Memref sig .tc .vmem S256x1024 .f32) (harg10 : arg10.IsWhole) (arg11 : Memref sig .tc .vmem S256x1024 .f32) (harg11 : arg11.IsWhole)
    (hc0 : ¬cond0 i) (hc1 : ¬cond1 i) (hc2 : ¬cond2 i) (x0 : Vec F S256x1024 .f32) (x1 x2 : Vec F S1024 .i32) (x3 : Vec F S1024 .f32) (x4 x5 x6 : Vec F S1024 .i32) (x7 : Vec F S1024 .f32) (xo xa : Vec F S256x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ owns (c : Thread nD τ) arg11 fullShare xa
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo
            ∗ owns (c : Thread nD τ) arg11 fullShare (k0_pay1 (k0_pay5 x0 x4 x5 x7) (k0_pay6 (F := F) x6) xa)) -∗ K ⟨⟩))
      ⊢ wp frame (wpE (defs₀ (F := F)) Variants.none c none) Set.univ (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fa, %hfa, HA⟩, Hk⟩
  subst hf0 hf1 hf2 hf3 hf4 hf5 hf6 hf7
  subst hfo hfa
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HO]
  · iexists fo; isplitr; · ipureintro; rfl
    iexact HO
  iexists _; isplitr
  swap; · iexact HA
  ipureintro
  sl_unfold_words
  rw [View.read_writes_eq_canon _ _ _ (cover_head _ _), View.canon_cons_unit_zero (S := S256x1024) off2]
  simp only [View.readCov_cons_toLoadRect, View.readAt_eq_ld, View.ld_unit_zero (S := S256x1024) off2, View.ld_unit_zero (S := S1024) off1]

/-- The last tile (r = 97): the second-order tile's contribution is added and the accumulator copied to the result's buffer. -/
theorem run_last (c : Dev nD) (i : grid0.Coords) (arg2 : Memref sig .tc .vmem S256x1024 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1024 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .i32) (harg8 : arg8.IsWhole) (arg9 : Memref sig .tc .vmem S1024 .f32) (harg9 : arg9.IsWhole) (arg10 : Memref sig .tc .vmem S256x1024 .f32) (harg10 : arg10.IsWhole) (arg11 : Memref sig .tc .vmem S256x1024 .f32) (harg11 : arg11.IsWhole)
    (hc0 : ¬cond0 i) (hc1 : ¬cond1 i) (hc2 : cond2 i) (x0 : Vec F S256x1024 .f32) (x1 x2 : Vec F S1024 .i32) (x3 : Vec F S1024 .f32) (x4 x5 x6 : Vec F S1024 .i32) (x7 : Vec F S1024 .f32) (xa : Vec F S256x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xa
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay1 (k0_pay5 x0 x4 x5 x7) (k0_pay6 (F := F) x6) xa)
            ∗ owns (c : Thread nD τ) arg11 fullShare (k0_pay1 (k0_pay5 x0 x4 x5 x7) (k0_pay6 (F := F) x6) xa)) -∗ K ⟨⟩))
      ⊢ wp frame (wpE (defs₀ (F := F)) Variants.none c none) Set.univ (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fo, -, HO⟩, ⟨%fa, %hfa, HA⟩, Hk⟩
  subst hf0 hf1 hf2 hf3 hf4 hf5 hf6 hf7
  subst hfa
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HO]
  · iexists _; isplitr
    swap; · iexact HO
    ipureintro
    sl_unfold_words
    rw [View.read_writes_eq_canon _ _ _ (cover_head _ _), View.canon_cons_unit_zero (S := S256x1024) off2]
    simp only [View.readCov_cons_toLoadRect, View.readAt_eq_ld, View.ld_unit_zero (S := S256x1024) off2, View.ld_unit_zero (S := S1024) off1]
  iexists _; isplitr
  swap; · iexact HA
  ipureintro
  sl_unfold_words
  rw [View.read_writes_eq_canon _ _ _ (cover_head _ _), View.canon_cons_unit_zero (S := S256x1024) off2]
  simp only [View.readCov_cons_toLoadRect, View.readAt_eq_ld, View.ld_unit_zero (S := S256x1024) off2, View.ld_unit_zero (S := S1024) off1]

/-! ## The accumulator's step in each case -/

section Step
variable (r : ℕ) (acc y : Vec F S256x1024 .f32) (ir1 ip1 : Vec F S1024 .i32) (k1 : Vec F S1024 .f32)
  (i20 i21 ip2 : Vec F S1024 .i32) (k2 : Vec F S1024 .f32)

theorem accStep_first (h : r = 0) : accStep r acc y ir1 ip1 k1 i20 i21 ip2 k2
    = k0_pay1 (k0_pay5 y i20 i21 k2) (k0_pay6 (F := F) ip2) (k0_pay4 y ir1 ip1 k1 (k0_pay2 (F := F))) := by
  subst h; unfold accStep; rw [if_pos (by decide : (0 : ℕ) < 49), if_pos (rfl : (0 : ℕ) = 0)]
theorem accStep_low (h0 : r ≠ 0) (h1 : r < 49) : accStep r acc y ir1 ip1 k1 i20 i21 ip2 k2
    = k0_pay1 (k0_pay5 y i20 i21 k2) (k0_pay6 (F := F) ip2) (k0_pay4 y ir1 ip1 k1 acc) := by
  unfold accStep; rw [if_pos h1, if_neg h0]
theorem accStep_high (h0 : r ≠ 0) (h1 : ¬r < 49) : accStep r acc y ir1 ip1 k1 i20 i21 ip2 k2
    = k0_pay1 (k0_pay5 y i20 i21 k2) (k0_pay6 (F := F) ip2) acc := by
  unfold accStep; rw [if_neg h1, if_neg h0]
end Step

variable (m : (ℓ : Loc nD τ sig) → Buf (Elt F) ℓ) (ρ : Dev nD → PrngReg)

/-- The accumulator the body finds at point `t`: the zero block at the very first point (where the body resets it
    anyway), else what the point before left. -/
def prevAcc (c : Dev nD) (t : Fin cfg0.N) : Vec F S256x1024 .f32 :=
  if h : t.val = 0 then k0_pay2 else accAt m c (t.val - 1) (Nat.lt_of_le_of_lt (Nat.sub_le _ _) t.isLt)

theorem accAt_eq (c : Dev nD) (t : Fin cfg0.N) : accAt m c t.val t.isLt = stepAt m c t (prevAcc m c t) := by
  obtain ⟨n, hn⟩ := t
  cases n with
  | zero => rfl
  | succ n => exact (accAt_succ m c n hn).trans (by unfold prevAcc; rw [dif_neg (Nat.succ_ne_zero n)]; rfl)

theorem prevAcc_pos (c : Dev nD) (t : Fin cfg0.N) (hz : t.val ≠ 0) :
    prevAcc m c t = accAt m c (t.val - 1) (Nat.lt_of_le_of_lt (Nat.sub_le _ _) t.isLt) := by
  unfold prevAcc; rw [dif_neg hz]

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
/-- Away from the last reaction tile the result's window is idle and not written back; -/
theorem idleAt8 : ∀ t : Fin cfg0.N, ¬cond2 (grid0.coords t) → cfg0.idle 8 (grid0.coords t) = true := by decide +kernel
theorem noFlush8 : ∀ t : Fin cfg0.N, ¬cond2 (grid0.coords t) → (cfg0.win 8).flush t = false := by decide +kernel
/-- at the last reaction tile it is live. -/
theorem liveAt8 : ∀ t : Fin cfg0.N, cond2 (grid0.coords t) → cfg0.idle 8 (grid0.coords t) = false := by decide +kernel

/-! ## The invariant, position by position -/

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl
theorem PhiS_castSucc (c : Dev nD) (t : Fin cfg0.N) :
    (dats m 0 c).Φ t.castSucc = PhiS m c t.val (Nat.le_of_lt t.isLt) := by
  dsimp only [dats]; simp only [Fin.coe_castSucc]

/-! ## What the body finds and leaves, window by window -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem leaves0_0 (c : Dev nD) (t : Fin cfg0.N) :
    (dats m 0 c).leavesExact 0 t = owns (c : Thread nD τ) (st0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (st0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (st0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (st0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (st0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (st0_5 t) fullShare (iblk m c 5 t) := by
  unfold Dat.leavesExact; rw [liveAt0_5 t, after0_5]
theorem leaves0_6 (c : Dev nD) (t : Fin cfg0.N) :
    (dats m 0 c).leavesExact 6 t = owns (c : Thread nD τ) (st0_6 t) fullShare (iblk m c 6 t) := by
  unfold Dat.leavesExact; rw [liveAt0_6 t, after0_6]
theorem leaves0_7 (c : Dev nD) (t : Fin cfg0.N) :
    (dats m 0 c).leavesExact 7 t = owns (c : Thread nD τ) (st0_7 t) fullShare (iblk m c 7 t) := by
  unfold Dat.leavesExact; rw [liveAt0_7 t, after0_7]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point: each input's buffer holds its block; the reaction tile decides the case; the invariant hands the
    body the scratch at what the point before left (at anything before the first point) and takes it back at this point's
    accumulator; the result's buffer comes back untouched except at the last reaction tile, where it holds the accumulator. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7]
  rw [accAt_eq m c t]; unfold stepAt
  have hr := rOf_mod t
  by_cases h0 : rOf t = 0
  · have hc0 : cond0 (grid0.coords t) := (hcond0 t).mpr h0
    have hc1 : cond1 (grid0.coords t) := (hcond1 t).mpr (by omega)
    have hc2 : ¬cond2 (grid0.coords t) := fun h => by have := (hcond2 t).mp h; omega
    rw [Dat.leavesExact_idle (dats m 0 c) 8 t (idleAt8 t hc2) (noFlush8 t hc2)]
    rw [accStep_first _ _ _ _ _ _ _ _ _ _ h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) ((dats m 0 c).before 8 t d8) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists d8; iexact H8
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) ((dats m 0 c).before 8 t d8) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists d8; iexact H8
  · have hz : t.val ≠ 0 := fun h => h0 (by rw [hr, h])
    have hc0 : ¬cond0 (grid0.coords t) := fun h => h0 ((hcond0 t).mp h)
    rw [PhiS_castSucc m c t, PhiS_pos m c _ _ hz, prevAcc_pos m c t hz]
    by_cases h1 : rOf t < 49
    · have hc1 : cond1 (grid0.coords t) := (hcond1 t).mpr h1
      have hc2 : ¬cond2 (grid0.coords t) := fun h => by have := (hcond2 t).mp h; omega
      rw [Dat.leavesExact_idle (dats m 0 c) 8 t (idleAt8 t hc2) (noFlush8 t hc2)]
      rw [accStep_low _ _ _ _ _ _ _ _ _ _ h0 h1]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_low c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) ((dats m 0 c).before 8 t d8) (accAt m c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists d8; iexact H8
    · have hc1 : ¬cond1 (grid0.coords t) := fun h => h1 ((hcond1 t).mp h)
      rw [accStep_high _ _ _ _ _ _ _ _ _ _ h0 h1]
      by_cases h2 : rOf t = 97
      · have hc2 : cond2 (grid0.coords t) := (hcond2 t).mpr h2
        rw [show (dats m 0 c).leavesExact 8 t = owns (c : Thread nD τ) (st0_8 t) fullShare ((dats m 0 c).after 8 t) from by
          unfold Dat.leavesExact; rw [liveAt8 t hc2], after0_8, accAt_eq m c t]
        unfold stepAt
        rw [prevAcc_pos m c t hz, accStep_high _ _ _ _ _ _ _ _ _ _ h0 h1]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run_last c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (accAt m c (t.val - 1) (Nat.lt_of_le_of_lt (Nat.sub_le _ _) t.isLt)) _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS]; · iexact HS
        iintro ⟨H0, H1, H2, H3, H4, H5, H6, H7, H8, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · have hc2 : ¬cond2 (grid0.coords t) := fun h => h2 ((hcond2 t).mp h)
        rw [Dat.leavesExact_idle (dats m 0 c) 8 t (idleAt8 t hc2) (noFlush8 t hc2)]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run_mid c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) ((dats m 0 c).before 8 t d8) (accAt m c (t.val - 1) (Nat.lt_of_le_of_lt (Nat.sub_le _ _) t.isLt)) _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexact HS
        iintro ⟨H0, H1, H2, H3, H4, H5, H6, H7, H8, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists d8; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 196 := N_0; omega), PhiA_eq]
  iintro ⟨HS, Hg⟩
  isplitl [HS]
  · iexists _; iexact HS
  iexact Hg

/-! ## The run and the frame -/

set_option backward.isDefEq.respectTransparency.types false in
/-- For any values, from any memory with zero counters: every weakly fair execution of @main terminates, every array of the
    pipeline ends at what the library computes from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME, at any float instance: the program runs to the end, faults nowhere, leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The same run with the result array named: it ends at what the write-backs of all points leave (`Dat.arrAt`), the
    arguments unchanged. -/
theorem run_value : θ_run defs (onTc (τ := τ) (main (F := F))) ⟨m, fun _ => 0, ρ⟩ (fun r => ∀ c : Dev nD,
      r.2.mem ((c.tc : Thread nD τ).loc main_v7) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1 8, ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

end Cert.Proof.K

end
-- ==== Proof.KI.Data.lean ====
import proofs.«415795_j59304908423466_2_alg».proof.Proof.Gen.KernelIdeal.Skeleton
import proofs.«415795_j59304908423466_2_alg».proof.Proof.Gen.KernelIdeal.Frame
/-
  The idealized kernel's accumulator, point by point, and the pipeline's proof data — for every float instance.

  The grid is (2, 98): point `t` is batch tile `t / 98`, reaction tile `r = t % 98`. At each point the body
  * resets the scratch accumulator to zero when `r = 0`,
  * adds the first-order tile's contribution when `r < 49` (the 50000 first-order reactions fill 49 tiles of 1024),
  * adds the second-order tile's contribution,
  and copies the accumulator into the result's block when `r = 97`.  `accStep` is that update as a function of the
  accumulator found and the eight input blocks of the point; `accAt` its value after each point, by recursion on the point.
-/

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The accumulator after one grid point whose reaction tile is `r`: reset at the first tile, the first-order tile's
    scatter added while `r < 49`, the second-order tile's scatter added always. -/
def accStep (r : ℕ) (acc y : Vec F S256x1024 .f32) (ir1 ip1 : Vec F S1024 .i32) (k1 : Vec F S1024 .f32)
    (i20 i21 ip2 : Vec F S1024 .i32) (k2 : Vec F S1024 .f32) : Vec F S256x1024 .f32 :=
  k0_pay1 (k0_pay5 y i20 i21 k2) (k0_pay6 (F := F) ip2)
    (if r < 49 then k0_pay4 y ir1 ip1 k1 (if r = 0 then k0_pay2 else acc) else (if r = 0 then k0_pay2 else acc))

variable (m : (ℓ : Loc nD τ sig) → Buf (Elt F) ℓ) (ρ : Dev nD → PrngReg)

/-- The reaction tile of grid point `t`. -/
abbrev rOf (t : Fin cfg0.N) : ℕ := (grid0.coords t 1).val

/-- The eight input blocks of point `t`, at their literal types. -/
abbrev yB (c : Dev nD) (t : Fin cfg0.N) : Vec F S256x1024 .f32 := iblk m c 0 t
abbrev ir1B (c : Dev nD) (t : Fin cfg0.N) : Vec F S1024 .i32 := iblk m c 1 t
abbrev ip1B (c : Dev nD) (t : Fin cfg0.N) : Vec F S1024 .i32 := iblk m c 2 t
abbrev k1B (c : Dev nD) (t : Fin cfg0.N) : Vec F S1024 .f32 := iblk m c 3 t
abbrev i20B (c : Dev nD) (t : Fin cfg0.N) : Vec F S1024 .i32 := iblk m c 4 t
abbrev i21B (c : Dev nD) (t : Fin cfg0.N) : Vec F S1024 .i32 := iblk m c 5 t
abbrev ip2B (c : Dev nD) (t : Fin cfg0.N) : Vec F S1024 .i32 := iblk m c 6 t
abbrev k2B (c : Dev nD) (t : Fin cfg0.N) : Vec F S1024 .f32 := iblk m c 7 t

/-- One point's update at the point's own blocks. -/
def stepAt (c : Dev nD) (t : Fin cfg0.N) (acc : Vec F S256x1024 .f32) : Vec F S256x1024 .f32 :=
  accStep (rOf t) acc (yB m c t) (ir1B m c t) (ip1B m c t) (k1B m c t) (i20B m c t) (i21B m c t) (ip2B m c t) (k2B m c t)

/-- The accumulator after point `n`. -/
def accAt (c : Dev nD) : (n : ℕ) → n < cfg0.N → Vec F S256x1024 .f32
  | 0, h => stepAt m c ⟨0, h⟩ k0_pay2
  | n + 1, h => stepAt m c ⟨n + 1, h⟩ (accAt c n (Nat.lt_of_succ_lt h))

theorem accAt_zero (c : Dev nD) (h : 0 < cfg0.N) : accAt m c 0 h = stepAt m c ⟨0, h⟩ k0_pay2 := rfl
theorem accAt_succ (c : Dev nD) (n : ℕ) (h : n + 1 < cfg0.N) :
    accAt m c (n + 1) h = stepAt m c ⟨n + 1, h⟩ (accAt m c n (Nat.lt_of_succ_lt h)) := rfl

/-- The scratch accumulator as a memref. -/
abbrev scM : Memref sig .tc .vmem S256x1024 .f32 := Memref.whole cc0_scratch0

/-- The region invariant before position `n`: before the first point the scratch holds anything; afterwards it holds
    the accumulator the point before left. The generator register is at some state throughout. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

/-- The proof data of the pipeline on core `c`: the arrays as the region finds them; after the body each input's buffer
    at its block and the result's at the accumulator after that point (read only where the block is written back, at the
    last reaction tile); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_8 (c : Dev nD) (t : Fin cfg0.N) : (dats m 0 c).after 8 t = accAt m c t.val t.isLt := by dsimp only [dats]

end Cert.Proof.KI

end
-- ==== Proof.KI.Body.lean ====
import proofs.«415795_j59304908423466_2_alg».proof.Proof.KI.Data
import Idealize.ShloMosaic.Lib.Pipeline.Value
/-
  The idealized kernel's body at every grid point, the body obligation, the frame run and the frame — for every float
  instance.  The body has three conditions on the reaction tile r of the point (r = 0: reset the accumulator; r < 49: add
  the first-order tile; r = 97: copy the accumulator to the result's block); the grid meets four combinations of them, and
  in each the body runs to the accumulator of `accStep` in the scratch, the inputs untouched, and the result's staging
  buffer untouched except at r = 97, where it receives the accumulator.
-/

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions, from the grid coordinates -/

/-- `r = 0`: the accumulator is reset. -/
abbrev cond0 (i : grid0.Coords) : Prop :=
  (Scalar.cmpi .ne (Scalar.extui (Scalar.cmpi .eq (BitVec.ofNat 32 (i 1).val) 0#32)) 0#32) = 1#1
/-- `r < 49`: the first-order tile is real. -/
abbrev cond1 (i : grid0.Coords) : Prop :=
  (Scalar.cmpi .ne (Scalar.extui (Scalar.cmpi .slt (BitVec.ofNat 32 (i 1).val) 49#32)) 0#32) = 1#1
/-- `r = 97`: the accumulator is copied to the result's block. -/
abbrev cond2 (i : grid0.Coords) : Prop := k0_cond3 i = 1#1

theorem hcond0 : ∀ t : Fin cfg0.N, cond0 (grid0.coords t) ↔ rOf t = 0 :=
  (by decide +kernel : ∀ t : Fin grid0.N, cond0 (grid0.coords t) ↔ (grid0.coords t 1).val = 0)
theorem hcond1 : ∀ t : Fin cfg0.N, cond1 (grid0.coords t) ↔ rOf t < 49 :=
  (by decide +kernel : ∀ t : Fin grid0.N, cond1 (grid0.coords t) ↔ (grid0.coords t 1).val < 49)
theorem hcond2 : ∀ t : Fin cfg0.N, cond2 (grid0.coords t) ↔ rOf t = 97 :=
  (by decide +kernel : ∀ t : Fin grid0.N, cond2 (grid0.coords t) ↔ (grid0.coords t 1).val = 97)

/-- Point `t`'s reaction tile is `t mod 98`. -/
theorem rOf_mod : ∀ t : Fin cfg0.N, rOf t = t.val % 98 :=
  (by decide +kernel : ∀ t : Fin grid0.N, (grid0.coords t 1).val = t.val % 98)

/-! ## Whole-buffer stores and loads -/

/-- The whole-buffer rectangle's offsets are zero. -/
theorem off2 : (![0, 0] : Fin 2 → ℕ) = fun _ => 0 := funext fun a => by fin_cases a <;> rfl
theorem off1 : (![0] : Fin 1 → ℕ) = fun _ => 0 := funext fun a => by fin_cases a <;> rfl

/-- A list of stores whose last is through the whole-buffer rectangle covers every index. -/
theorem cover_head (w : Vec F S256x1024 .f32) (L : List (View.Piece (Elt F) S256x1024 .f32)) (y : S256x1024.Idx) :
    ∃ pc ∈ ((⟨Rect.unit (s := S256x1024) ![0, 0] S256x1024.size inb_S256x1024_S256x1024_0_0, w⟩ : View.Piece (Elt F) S256x1024 .f32) :: L), y ∈ pc.1.set := by
  obtain ⟨pc, hm, hy⟩ := View.cover_of_tiled [(⟨Rect.unit (s := S256x1024) ![0, 0] S256x1024.size inb_S256x1024_S256x1024_0_0, w⟩ : View.Piece (Elt F) S256x1024 .f32)] S256x1024.size (by rfl) y
  rw [List.mem_singleton] at hm; subst hm
  exact ⟨_, List.mem_cons_self, hy⟩

/-! ## The body's run in each of the four cases -/

/-- First reaction tile (r = 0): the scratch, at anything, is reset, then both tiles' contributions are added. -/
theorem run_first (c : Dev nD) (i : grid0.Coords) (arg2 : Memref sig .tc .vmem S256x1024 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1024 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .i32) (harg8 : arg8.IsWhole) (arg9 : Memref sig .tc .vmem S1024 .f32) (harg9 : arg9.IsWhole) (arg10 : Memref sig .tc .vmem S256x1024 .f32) (harg10 : arg10.IsWhole) (arg11 : Memref sig .tc .vmem S256x1024 .f32) (harg11 : arg11.IsWhole)
    (hc0 : cond0 i) (hc1 : cond1 i) (hc2 : ¬cond2 i) (x0 : Vec F S256x1024 .f32) (x1 x2 : Vec F S1024 .i32) (x3 : Vec F S1024 .f32) (x4 x5 x6 : Vec F S1024 .i32) (x7 : Vec F S1024 .f32) (xo : Vec F S256x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo
            ∗ owns (c : Thread nD τ) arg11 fullShare (k0_pay1 (k0_pay5 x0 x4 x5 x7) (k0_pay6 (F := F) x6) (k0_pay4 x0 x1 x2 x3 (k0_pay2 (F := F))))) -∗ K ⟨⟩))
      ⊢ wp frame (wpE (defs₀ (F := F)) Variants.none c none) Set.univ (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%da, %fa, -, HA⟩, Hk⟩
  subst hf0 hf1 hf2 hf3 hf4 hf5 hf6 hf7
  subst hfo
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HO]
  · iexists fo; isplitr; · ipureintro; rfl
    iexact HO
  iexists _; isplitr
  swap; · iexact HA
  ipureintro
  sl_unfold_words
  rw [View.read_writes_eq_canon _ _ _ (cover_head _ _), View.canon_cons_unit_zero (S := S256x1024) off2]
  simp only [View.readCov_cons_toLoadRect, View.readAt_eq_ld, View.ld_unit_zero (S := S256x1024) off2, View.ld_unit_zero (S := S1024) off1]

/-- A later tile below 49: both tiles' contributions are added to the accumulator found. -/
theorem run_low (c : Dev nD) (i : grid0.Coords) (arg2 : Memref sig .tc .vmem S256x1024 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1024 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .i32) (harg8 : arg8.IsWhole) (arg9 : Memref sig .tc .vmem S1024 .f32) (harg9 : arg9.IsWhole) (arg10 : Memref sig .tc .vmem S256x1024 .f32) (harg10 : arg10.IsWhole) (arg11 : Memref sig .tc .vmem S256x1024 .f32) (harg11 : arg11.IsWhole)
    (hc0 : ¬cond0 i) (hc1 : cond1 i) (hc2 : ¬cond2 i) (x0 : Vec F S256x1024 .f32) (x1 x2 : Vec F S1024 .i32) (x3 : Vec F S1024 .f32) (x4 x5 x6 : Vec F S1024 .i32) (x7 : Vec F S1024 .f32) (xo xa : Vec F S256x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ owns (c : Thread nD τ) arg11 fullShare xa
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo
            ∗ owns (c : Thread nD τ) arg11 fullShare (k0_pay1 (k0_pay5 x0 x4 x5 x7) (k0_pay6 (F := F) x6) (k0_pay4 x0 x1 x2 x3 xa))) -∗ K ⟨⟩))
      ⊢ wp frame (wpE (defs₀ (F := F)) Variants.none c none) Set.univ (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fa, %hfa, HA⟩, Hk⟩
  subst hf0 hf1 hf2 hf3 hf4 hf5 hf6 hf7
  subst hfo hfa
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HO]
  · iexists fo; isplitr; · ipureintro; rfl
    iexact HO
  iexists _; isplitr
  swap; · iexact HA
  ipureintro
  sl_unfold_words
  rw [View.read_writes_eq_canon _ _ _ (cover_head _ _), View.canon_cons_unit_zero (S := S256x1024) off2]
  simp only [View.readCov_cons_toLoadRect, View.readAt_eq_ld, View.ld_unit_zero (S := S256x1024) off2, View.ld_unit_zero (S := S1024) off1]

/-- A tile from 49 to 96: only the second-order tile's contribution is added. -/
theorem run_mid (c : Dev nD) (i : grid0.Coords) (arg2 : Memref sig .tc .vmem S256x1024 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1024 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .i32) (harg8 : arg8.IsWhole) (arg9 : Memref sig .tc .vmem S1024 .f32) (harg9 : arg9.IsWhole) (arg10 : Memref sig .tc .vmem S256x1024 .f32) (harg10 : arg10.IsWhole) (arg11 : Memref sig .tc .vmem S256x1024 .f32) (harg11 : arg11.IsWhole)
    (hc0 : ¬cond0 i) (hc1 : ¬cond1 i) (hc2 : ¬cond2 i) (x0 : Vec F S256x1024 .f32) (x1 x2 : Vec F S1024 .i32) (x3 : Vec F S1024 .f32) (x4 x5 x6 : Vec F S1024 .i32) (x7 : Vec F S1024 .f32) (xo xa : Vec F S256x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ owns (c : Thread nD τ) arg11 fullShare xa
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo
            ∗ owns (c : Thread nD τ) arg11 fullShare (k0_pay1 (k0_pay5 x0 x4 x5 x7) (k0_pay6 (F := F) x6) xa)) -∗ K ⟨⟩))
      ⊢ wp frame (wpE (defs₀ (F := F)) Variants.none c none) Set.univ (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fa, %hfa, HA⟩, Hk⟩
  subst hf0 hf1 hf2 hf3 hf4 hf5 hf6 hf7
  subst hfo hfa
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HO]
  · iexists fo; isplitr; · ipureintro; rfl
    iexact HO
  iexists _; isplitr
  swap; · iexact HA
  ipureintro
  sl_unfold_words
  rw [View.read_writes_eq_canon _ _ _ (cover_head _ _), View.canon_cons_unit_zero (S := S256x1024) off2]
  simp only [View.readCov_cons_toLoadRect, View.readAt_eq_ld, View.ld_unit_zero (S := S256x1024) off2, View.ld_unit_zero (S := S1024) off1]

/-- The last tile (r = 97): the second-order tile's contribution is added and the accumulator copied to the result's buffer. -/
theorem run_last (c : Dev nD) (i : grid0.Coords) (arg2 : Memref sig .tc .vmem S256x1024 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1024 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .i32) (harg8 : arg8.IsWhole) (arg9 : Memref sig .tc .vmem S1024 .f32) (harg9 : arg9.IsWhole) (arg10 : Memref sig .tc .vmem S256x1024 .f32) (harg10 : arg10.IsWhole) (arg11 : Memref sig .tc .vmem S256x1024 .f32) (harg11 : arg11.IsWhole)
    (hc0 : ¬cond0 i) (hc1 : ¬cond1 i) (hc2 : cond2 i) (x0 : Vec F S256x1024 .f32) (x1 x2 : Vec F S1024 .i32) (x3 : Vec F S1024 .f32) (x4 x5 x6 : Vec F S1024 .i32) (x7 : Vec F S1024 .f32) (xa : Vec F S256x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xa
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay1 (k0_pay5 x0 x4 x5 x7) (k0_pay6 (F := F) x6) xa)
            ∗ owns (c : Thread nD τ) arg11 fullShare (k0_pay1 (k0_pay5 x0 x4 x5 x7) (k0_pay6 (F := F) x6) xa)) -∗ K ⟨⟩))
      ⊢ wp frame (wpE (defs₀ (F := F)) Variants.none c none) Set.univ (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fo, -, HO⟩, ⟨%fa, %hfa, HA⟩, Hk⟩
  subst hf0 hf1 hf2 hf3 hf4 hf5 hf6 hf7
  subst hfa
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HO]
  · iexists _; isplitr
    swap; · iexact HO
    ipureintro
    sl_unfold_words
    rw [View.read_writes_eq_canon _ _ _ (cover_head _ _), View.canon_cons_unit_zero (S := S256x1024) off2]
    simp only [View.readCov_cons_toLoadRect, View.readAt_eq_ld, View.ld_unit_zero (S := S256x1024) off2, View.ld_unit_zero (S := S1024) off1]
  iexists _; isplitr
  swap; · iexact HA
  ipureintro
  sl_unfold_words
  rw [View.read_writes_eq_canon _ _ _ (cover_head _ _), View.canon_cons_unit_zero (S := S256x1024) off2]
  simp only [View.readCov_cons_toLoadRect, View.readAt_eq_ld, View.ld_unit_zero (S := S256x1024) off2, View.ld_unit_zero (S := S1024) off1]

/-! ## The accumulator's step in each case -/

section Step
variable (r : ℕ) (acc y : Vec F S256x1024 .f32) (ir1 ip1 : Vec F S1024 .i32) (k1 : Vec F S1024 .f32)
  (i20 i21 ip2 : Vec F S1024 .i32) (k2 : Vec F S1024 .f32)

theorem accStep_first (h : r = 0) : accStep r acc y ir1 ip1 k1 i20 i21 ip2 k2
    = k0_pay1 (k0_pay5 y i20 i21 k2) (k0_pay6 (F := F) ip2) (k0_pay4 y ir1 ip1 k1 (k0_pay2 (F := F))) := by
  subst h; unfold accStep; rw [if_pos (by decide : (0 : ℕ) < 49), if_pos (rfl : (0 : ℕ) = 0)]
theorem accStep_low (h0 : r ≠ 0) (h1 : r < 49) : accStep r acc y ir1 ip1 k1 i20 i21 ip2 k2
    = k0_pay1 (k0_pay5 y i20 i21 k2) (k0_pay6 (F := F) ip2) (k0_pay4 y ir1 ip1 k1 acc) := by
  unfold accStep; rw [if_pos h1, if_neg h0]
theorem accStep_high (h0 : r ≠ 0) (h1 : ¬r < 49) : accStep r acc y ir1 ip1 k1 i20 i21 ip2 k2
    = k0_pay1 (k0_pay5 y i20 i21 k2) (k0_pay6 (F := F) ip2) acc := by
  unfold accStep; rw [if_neg h1, if_neg h0]
end Step

variable (m : (ℓ : Loc nD τ sig) → Buf (Elt F) ℓ) (ρ : Dev nD → PrngReg)

/-- The accumulator the body finds at point `t`: the zero block at the very first point (where the body resets it
    anyway), else what the point before left. -/
def prevAcc (c : Dev nD) (t : Fin cfg0.N) : Vec F S256x1024 .f32 :=
  if h : t.val = 0 then k0_pay2 else accAt m c (t.val - 1) (Nat.lt_of_le_of_lt (Nat.sub_le _ _) t.isLt)

theorem accAt_eq (c : Dev nD) (t : Fin cfg0.N) : accAt m c t.val t.isLt = stepAt m c t (prevAcc m c t) := by
  obtain ⟨n, hn⟩ := t
  cases n with
  | zero => rfl
  | succ n => exact (accAt_succ m c n hn).trans (by unfold prevAcc; rw [dif_neg (Nat.succ_ne_zero n)]; rfl)

theorem prevAcc_pos (c : Dev nD) (t : Fin cfg0.N) (hz : t.val ≠ 0) :
    prevAcc m c t = accAt m c (t.val - 1) (Nat.lt_of_le_of_lt (Nat.sub_le _ _) t.isLt) := by
  unfold prevAcc; rw [dif_neg hz]

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
/-- Away from the last reaction tile the result's window is idle and not written back; -/
theorem idleAt8 : ∀ t : Fin cfg0.N, ¬cond2 (grid0.coords t) → cfg0.idle 8 (grid0.coords t) = true := by decide +kernel
theorem noFlush8 : ∀ t : Fin cfg0.N, ¬cond2 (grid0.coords t) → (cfg0.win 8).flush t = false := by decide +kernel
/-- at the last reaction tile it is live. -/
theorem liveAt8 : ∀ t : Fin cfg0.N, cond2 (grid0.coords t) → cfg0.idle 8 (grid0.coords t) = false := by decide +kernel

/-! ## The invariant, position by position -/

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl
theorem PhiS_castSucc (c : Dev nD) (t : Fin cfg0.N) :
    (dats m 0 c).Φ t.castSucc = PhiS m c t.val (Nat.le_of_lt t.isLt) := by
  dsimp only [dats]; simp only [Fin.coe_castSucc]

/-! ## What the body finds and leaves, window by window -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem leaves0_0 (c : Dev nD) (t : Fin cfg0.N) :
    (dats m 0 c).leavesExact 0 t = owns (c : Thread nD τ) (st0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (st0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (st0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (st0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (st0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (st0_5 t) fullShare (iblk m c 5 t) := by
  unfold Dat.leavesExact; rw [liveAt0_5 t, after0_5]
theorem leaves0_6 (c : Dev nD) (t : Fin cfg0.N) :
    (dats m 0 c).leavesExact 6 t = owns (c : Thread nD τ) (st0_6 t) fullShare (iblk m c 6 t) := by
  unfold Dat.leavesExact; rw [liveAt0_6 t, after0_6]
theorem leaves0_7 (c : Dev nD) (t : Fin cfg0.N) :
    (dats m 0 c).leavesExact 7 t = owns (c : Thread nD τ) (st0_7 t) fullShare (iblk m c 7 t) := by
  unfold Dat.leavesExact; rw [liveAt0_7 t, after0_7]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point: each input's buffer holds its block; the reaction tile decides the case; the invariant hands the
    body the scratch at what the point before left (at anything before the first point) and takes it back at this point's
    accumulator; the result's buffer comes back untouched except at the last reaction tile, where it holds the accumulator. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7]
  rw [accAt_eq m c t]; unfold stepAt
  have hr := rOf_mod t
  by_cases h0 : rOf t = 0
  · have hc0 : cond0 (grid0.coords t) := (hcond0 t).mpr h0
    have hc1 : cond1 (grid0.coords t) := (hcond1 t).mpr (by omega)
    have hc2 : ¬cond2 (grid0.coords t) := fun h => by have := (hcond2 t).mp h; omega
    rw [Dat.leavesExact_idle (dats m 0 c) 8 t (idleAt8 t hc2) (noFlush8 t hc2)]
    rw [accStep_first _ _ _ _ _ _ _ _ _ _ h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) ((dats m 0 c).before 8 t d8) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists d8; iexact H8
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) ((dats m 0 c).before 8 t d8) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists d8; iexact H8
  · have hz : t.val ≠ 0 := fun h => h0 (by rw [hr, h])
    have hc0 : ¬cond0 (grid0.coords t) := fun h => h0 ((hcond0 t).mp h)
    rw [PhiS_castSucc m c t, PhiS_pos m c _ _ hz, prevAcc_pos m c t hz]
    by_cases h1 : rOf t < 49
    · have hc1 : cond1 (grid0.coords t) := (hcond1 t).mpr h1
      have hc2 : ¬cond2 (grid0.coords t) := fun h => by have := (hcond2 t).mp h; omega
      rw [Dat.leavesExact_idle (dats m 0 c) 8 t (idleAt8 t hc2) (noFlush8 t hc2)]
      rw [accStep_low _ _ _ _ _ _ _ _ _ _ h0 h1]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_low c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) ((dats m 0 c).before 8 t d8) (accAt m c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists d8; iexact H8
    · have hc1 : ¬cond1 (grid0.coords t) := fun h => h1 ((hcond1 t).mp h)
      rw [accStep_high _ _ _ _ _ _ _ _ _ _ h0 h1]
      by_cases h2 : rOf t = 97
      · have hc2 : cond2 (grid0.coords t) := (hcond2 t).mpr h2
        rw [show (dats m 0 c).leavesExact 8 t = owns (c : Thread nD τ) (st0_8 t) fullShare ((dats m 0 c).after 8 t) from by
          unfold Dat.leavesExact; rw [liveAt8 t hc2], after0_8, accAt_eq m c t]
        unfold stepAt
        rw [prevAcc_pos m c t hz, accStep_high _ _ _ _ _ _ _ _ _ _ h0 h1]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run_last c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (accAt m c (t.val - 1) (Nat.lt_of_le_of_lt (Nat.sub_le _ _) t.isLt)) _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS]; · iexact HS
        iintro ⟨H0, H1, H2, H3, H4, H5, H6, H7, H8, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · have hc2 : ¬cond2 (grid0.coords t) := fun h => h2 ((hcond2 t).mp h)
        rw [Dat.leavesExact_idle (dats m 0 c) 8 t (idleAt8 t hc2) (noFlush8 t hc2)]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run_mid c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) ((dats m 0 c).before 8 t d8) (accAt m c (t.val - 1) (Nat.lt_of_le_of_lt (Nat.sub_le _ _) t.isLt)) _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexact HS
        iintro ⟨H0, H1, H2, H3, H4, H5, H6, H7, H8, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists d8; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 196 := N_0; omega), PhiA_eq]
  iintro ⟨HS, Hg⟩
  isplitl [HS]
  · iexists _; iexact HS
  iexact Hg

/-! ## The run and the frame -/

set_option backward.isDefEq.respectTransparency.types false in
/-- For any values, from any memory with zero counters: every weakly fair execution of @main terminates, every array of the
    pipeline ends at what the library computes from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME, at any float instance: the program runs to the end, faults nowhere, leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The same run with the result array named: it ends at what the write-backs of all points leave (`Dat.arrAt`), the
    arguments unchanged. -/
theorem run_value : θ_run defs (onTc (τ := τ) (main (F := F))) ⟨m, fun _ => 0, ρ⟩ (fun r => ∀ c : Dev nD,
      r.2.mem ((c.tc : Thread nD τ).loc main_v7) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1 8, ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

end Cert.Proof.KI

end
-- ==== Proof.Spec.lean ====
import Idealize.ShloMosaic.Lib.ValueIdx
import Idealize.ShloMosaic.PureOps.Ideal
/-
  The specification both programs meet, over the extended reals.

  `y` is the [512, 1024] array of abundances (batch row, species).  A first-order reaction `j` (50000 of them) reads
  species `ir1 j`, multiplies by its rate `k1 j` and adds the product to species `ip1 j`; a second-order reaction `j`
  (100000 of them) multiplies the abundances of species `i20 j` and `i21 j` and its rate `k2 j` and adds the product to
  species `ip2 j`.  Entry (b, s) of the result is the sum of the contributions of the reactions whose product is `s`.
-/

noncomputable section

open scoped BigOperators

namespace Cert.Proof.Spec

open Idealize.ShloMosaic Idealize.ShloMosaic.ValueIdx

abbrev SY : Shape := ⟨2, ![512, 1024]⟩
abbrev SA : Shape := ⟨1, ![50000]⟩
abbrev SB : Shape := ⟨1, ![100000]⟩

/-- A species word as a column of the abundance array (the word's value, folded into range so that the function is
    total; on a word below 1024 it is the word). -/
def col (w : BitVec 32) : Fin 1024 := ⟨w.toNat % 1024, Nat.mod_lt _ (by norm_num)⟩

theorem col_val_of_lt {w : BitVec 32} (h : w.toNat < 1024) : (col w).val = w.toNat := Nat.mod_eq_of_lt h

/-- First-order reaction `j`'s contribution to batch row `b`. -/
def term1 (y : SY.Idx → EReal) (ir : SA.Idx → BitVec 32) (k : SA.Idx → EReal) (b : Fin 512) (j : Fin 50000) : EReal :=
  y (ix2 b (col (ir (ix1 j)))) * k (ix1 j)

/-- Second-order reaction `j`'s contribution to batch row `b`. -/
def term2 (y : SY.Idx → EReal) (i0 i1 : SB.Idx → BitVec 32) (k : SB.Idx → EReal) (b : Fin 512) (j : Fin 100000) : EReal :=
  y (ix2 b (col (i0 (ix1 j)))) * y (ix2 b (col (i1 (ix1 j)))) * k (ix1 j)

/-- The result: at (b, s) the first-order contributions landing on species `s`, plus the second-order ones. -/
def G (y : SY.Idx → EReal) (ir1 ip1 : SA.Idx → BitVec 32) (k1 : SA.Idx → EReal)
    (i20 i21 ip2 : SB.Idx → BitVec 32) (k2 : SB.Idx → EReal) : SY.Idx → EReal := fun i =>
  (∑ j ∈ Finset.univ.filter (fun j : Fin 50000 => (ip1 (ix1 j)).toNat = (i 1).val), term1 y ir1 k1 (i 0) j)
    + ∑ j ∈ Finset.univ.filter (fun j : Fin 100000 => (ip2 (ix1 j)).toNat = (i 1).val), term2 y i20 i21 k2 (i 0) j

/-- The index facts the precondition states: every reactant index is a species id (below 1024 as an unsigned word, which
    is `0 ≤ · < 1024` signed), every product index is non-negative as a signed word. -/
structure InRange (ir1 ip1 : SA.Idx → BitVec 32) (i20 i21 ip2 : SB.Idx → BitVec 32) : Prop where
  ir1 : ∀ j, (ir1 j).toNat < 1024
  ip1 : ∀ j, (ip1 j).toNat < 2 ^ 31
  i20 : ∀ j, (i20 j).toNat < 1024
  i21 : ∀ j, (i21 j).toNat < 1024
  ip2 : ∀ j, (ip2 j).toNat < 2 ^ 31

end Cert.Proof.Spec

end
-- ==== Proof.SpecAlg.lean ====
import proofs.«415795_j59304908423466_2_alg».proof.Proof.Spec
import Mathlib.Algebra.BigOperators.Group.Finset.Basic
import Mathlib.Algebra.BigOperators.Fin
/-
  Sums over the extended reals that join the kernel's tiled one-hot products to the specification's scatter sums.
-/

noncomputable section

open scoped BigOperators

namespace Cert.Proof.Spec
open Idealize.ShloMosaic Idealize.ShloMosaic.ValueIdx

/-- A number below 2^32, as a 32-bit word, is `w` exactly when it is the value of `w`. -/
private theorem ofNat_eq_iff (n : ℕ) (hn : n < 2 ^ 32) (w : BitVec 32) :
    BitVec.ofNat 32 n = w ↔ n = w.toNat := by
  constructor
  · intro h
    rw [← h, BitVec.toNat_ofNat, Nat.mod_eq_of_lt hn]
  · intro h
    apply BitVec.eq_of_toNat_eq
    rw [BitVec.toNat_ofNat, Nat.mod_eq_of_lt hn, h]

/-- A row of abundances times a one-hot column carrying `k` at the species `w` names is that species' abundance times `k`. -/
theorem onehot_gather (y : Fin 1024 → EReal) (w : BitVec 32) (k : EReal) (hw : w.toNat < 1024) :
    ∑ s' : Fin 1024, y s' * (if BitVec.ofNat 32 s'.val = w then k else 0) = y (col w) * k := by
  have hlt : ∀ s' : Fin 1024, s'.val < 2 ^ 32 := fun s' => lt_trans s'.isLt (by norm_num)
  rw [Finset.sum_eq_single (col w)]
  · -- the column `w` names carries `k`
    rw [if_pos ((ofNat_eq_iff _ (hlt _) w).2 (col_val_of_lt hw))]
  · -- every other column carries zero
    intro b _ hb
    rw [if_neg, mul_zero]
    intro h
    apply hb
    apply Fin.ext
    rw [col_val_of_lt hw]
    exact (ofNat_eq_iff _ (hlt _) w).1 h
  · intro h
    exact absurd (Finset.mem_univ _) h

/-- Contributions times the one-hot row of products, summed over a tile, are the contributions whose product is `s`. -/
theorem onehot_scatter (f : Fin 1024 → EReal) (p : Fin 1024 → BitVec 32) (s : Fin 1024) :
    ∑ j : Fin 1024, f j * (if BitVec.ofNat 32 s.val = p j then 1 else 0)
      = ∑ j ∈ Finset.univ.filter (fun j : Fin 1024 => (p j).toNat = s.val), f j := by
  have hs : s.val < 2 ^ 32 := lt_trans s.isLt (by norm_num)
  rw [Finset.sum_filter]
  apply Finset.sum_congr rfl
  intro j _
  by_cases h : (p j).toNat = s.val
  · rw [if_pos ((ofNat_eq_iff _ hs _).2 h.symm), if_pos h, mul_one]
  · rw [if_neg (fun h' => h ((ofNat_eq_iff _ hs _).1 h').symm), if_neg h, mul_zero]

/-- Consecutive tiles of 1024 terms, summed tile by tile, are the whole range summed at once. -/
private theorem sum_tiles (g : ℕ → EReal) (R : ℕ) :
    ∑ r ∈ Finset.range R, ∑ j ∈ Finset.range 1024, g (r * 1024 + j) = ∑ n ∈ Finset.range (R * 1024), g n := by
  induction R with
  | zero => rw [Finset.sum_range_zero, Nat.zero_mul, Finset.sum_range_zero]
  | succ R ih => rw [Finset.sum_range_succ, ih, Nat.succ_mul, Finset.sum_range_add]

/-- `R` tiles of 1024 reactions, of which only the first `N` are real and the rest contribute zero, summed tile by
    tile over the reactions whose product is `s`, are the `N` real reactions summed at once. -/
theorem tiles_eq (R N : ℕ) (hN : N ≤ R * 1024) (f : ℕ → EReal) (p : ℕ → ℕ) (s : ℕ)
    (hz : ∀ n, N ≤ n → n < R * 1024 → f n = 0) :
    ∑ r ∈ Finset.range R, ∑ j ∈ (Finset.univ : Finset (Fin 1024)).filter (fun j => p (r * 1024 + j.val) = s), f (r * 1024 + j.val)
      = ∑ j ∈ (Finset.univ : Finset (Fin N)).filter (fun j => p j.val = s), f j.val := by
  -- both sides are the sum over `range (R * 1024)` of each term masked by whether its product is `s`
  let g : ℕ → EReal := fun n => if p n = s then f n else 0
  have hL : ∑ r ∈ Finset.range R, ∑ j ∈ (Finset.univ : Finset (Fin 1024)).filter (fun j => p (r * 1024 + j.val) = s), f (r * 1024 + j.val)
      = ∑ n ∈ Finset.range (R * 1024), g n := by
    rw [← sum_tiles g R]
    apply Finset.sum_congr rfl
    intro r _
    rw [Finset.sum_filter]
    exact Fin.sum_univ_eq_sum_range (fun j => g (r * 1024 + j)) 1024
  have hR : ∑ j ∈ (Finset.univ : Finset (Fin N)).filter (fun j => p j.val = s), f j.val
      = ∑ n ∈ Finset.range (R * 1024), g n := by
    rw [Finset.sum_filter]
    refine (Fin.sum_univ_eq_sum_range g N).trans ?_
    apply Finset.sum_subset (Finset.range_subset_range.2 hN)
    intro n hn hn'
    have h1 : n < R * 1024 := Finset.mem_range.1 hn
    have h2 : N ≤ n := Nat.le_of_not_lt (fun h => hn' (Finset.mem_range.2 h))
    show (if p n = s then f n else 0) = 0
    rw [hz n h2 h1, ite_self]
  rw [hL, hR]

/-- An accumulator reset at tile 0, to which tile `r` adds `Q1 r` and then `Q2 r`, holds after tile `r` the sum of both
    over the tiles up to `r`. -/
theorem fold_tiles (a Q1 Q2 : ℕ → EReal) (h0 : a 0 = (0 + Q1 0) + Q2 0)
    (hs : ∀ r, a (r + 1) = (a r + Q1 (r + 1)) + Q2 (r + 1)) (r : ℕ) :
    a r = ∑ r' ∈ Finset.range (r + 1), Q1 r' + ∑ r' ∈ Finset.range (r + 1), Q2 r' := by
  induction r with
  | zero => rw [h0, Finset.sum_range_one, Finset.sum_range_one, zero_add]
  | succ n ih =>
    rw [hs, ih, Finset.sum_range_succ Q1 (n + 1), Finset.sum_range_succ Q2 (n + 1)]
    exact (add_assoc _ _ _).trans (add_add_add_comm _ _ _ _).symm

end Cert.Proof.Spec

end
-- ==== Proof.KI.Pay.lean ====
import proofs.«415795_j59304908423466_2_alg».proof.Proof.KI.Data
import proofs.«415795_j59304908423466_2_alg».proof.Proof.SpecAlg
import Idealize.ShloMosaic.Lib.ValueIdx
import Idealize.ShloMosaic.Lib.ValueLayout
import Idealize.ShloMosaic.Lib.Pipeline.Value
import Idealize.ShloMosaic.PureOps.Ideal.Laws
/-
  One grid point's update of the accumulator, read at an entry, at the ideal instance: the one-hot matrix products are
  selections, so the update adds to entry (b, s) the tile's contributions whose product species is `s`.

  The road: a matrix product into the zero block is, at an entry, the sum over the contracted coordinate of the operands'
  products (`mm_apply`); the three one-hot matrices the body builds from a tile's index words read, at an entry, a choice
  on the equality of a coordinate's word and the index word (`ohSel_apply`, `ohRow_apply`, `ohCol_apply`); a row of
  abundances against a selection matrix is the named species' abundance (`gatherSel_apply`, `gatherRow_apply`), and the
  contributions against the scatter matrix are those whose product word is the column (`scatter_apply`).
-/

noncomputable section

open scoped BigOperators

namespace Cert.Proof.KI
open Cert.KernelIdeal Cert.KernelIdeal.Gen Cert.Proof.Spec
open Idealize.ShloMosaic Idealize.ShloMosaic.ValueIdx

/-! ## The matrix product at an entry -/

/-- The product's left operand is read at the result's row … -/
theorem lhs_dot_S256x1024_S1024x1024_S256x1024_1_0_0_1_n_n_0 (j : S256x1024.Idx) (k : dot_S256x1024_S1024x1024_S256x1024_1_0_0_1_n_n.contr.Idx) :
    (dot_S256x1024_S1024x1024_S256x1024_1_0_0_1_n_n.lhsIdx j k 0 : ℕ) = j 0 := by
  unfold DotDims.lhsIdx
  simp [dot_S256x1024_S1024x1024_S256x1024_1_0_0_1_n_n]
  rfl
/-- … and the contraction position; -/
theorem lhs_dot_S256x1024_S1024x1024_S256x1024_1_0_0_1_n_n_1 (j : S256x1024.Idx) (k : dot_S256x1024_S1024x1024_S256x1024_1_0_0_1_n_n.contr.Idx) :
    (dot_S256x1024_S1024x1024_S256x1024_1_0_0_1_n_n.lhsIdx j k 1 : ℕ) = k ⟨0, by decide⟩ :=
  DotDims.lhsIdx_val_of_single dot_S256x1024_S1024x1024_S256x1024_1_0_0_1_n_n (cl := 1) rfl j k
/-- the right operand at the contraction position … -/
theorem rhs_dot_S256x1024_S1024x1024_S256x1024_1_0_0_1_n_n_0 (j : S256x1024.Idx) (k : dot_S256x1024_S1024x1024_S256x1024_1_0_0_1_n_n.contr.Idx) :
    (dot_S256x1024_S1024x1024_S256x1024_1_0_0_1_n_n.rhsIdx j k 0 : ℕ) = k ⟨0, by decide⟩ :=
  DotDims.rhsIdx_val_of_single dot_S256x1024_S1024x1024_S256x1024_1_0_0_1_n_n (cr := 0) rfl j k
/-- … and the result's column. -/
theorem rhs_dot_S256x1024_S1024x1024_S256x1024_1_0_0_1_n_n_1 (j : S256x1024.Idx) (k : dot_S256x1024_S1024x1024_S256x1024_1_0_0_1_n_n.contr.Idx) :
    (dot_S256x1024_S1024x1024_S256x1024_1_0_0_1_n_n.rhsIdx j k 1 : ℕ) = j 1 := by
  unfold DotDims.rhsIdx
  simp [dot_S256x1024_S1024x1024_S256x1024_1_0_0_1_n_n]
  rfl

/-- A matrix product into the zero block, at entry (b, s): the row b of the left operand against the column s of the
    right one. -/
theorem mm_apply (l : FVec Ideal S256x1024 .bf16) (r : FVec Ideal S1024x1024 .bf16) (b : Fin 256) (s : Fin 1024) :
    matmul dot_S256x1024_S1024x1024_S256x1024_1_0_0_1_n_n none l r (constant (F := Ideal) S256x1024 .f32 0x00000000#32) (ix2 b s)
      = ∑ k : Fin 1024, l (ix2 b k) * r (ix2 k s) := by
  refine (Ideal.matmul_constant_zero_apply dot_S256x1024_S1024x1024_S256x1024_1_0_0_1_n_n none l r (ix2 b s)).trans ?_
  rw [← Equiv.sum_comp (contrEquiv1 dot_S256x1024_S1024x1024_S256x1024_1_0_0_1_n_n 1024 rfl rfl).symm]
  refine Finset.sum_congr rfl fun k _ => ?_
  have e1 : dot_S256x1024_S1024x1024_S256x1024_1_0_0_1_n_n.lhsIdx (ix2 b s) ((contrEquiv1 dot_S256x1024_S1024x1024_S256x1024_1_0_0_1_n_n 1024 rfl rfl).symm k) = ix2 b k :=
    Shape.idx_ext₂ (lhs_dot_S256x1024_S1024x1024_S256x1024_1_0_0_1_n_n_0 _ _)
      ((lhs_dot_S256x1024_S1024x1024_S256x1024_1_0_0_1_n_n_1 _ _).trans (contrEquiv1_symm_val dot_S256x1024_S1024x1024_S256x1024_1_0_0_1_n_n 1024 rfl rfl k))
  have e2 : dot_S256x1024_S1024x1024_S256x1024_1_0_0_1_n_n.rhsIdx (ix2 b s) ((contrEquiv1 dot_S256x1024_S1024x1024_S256x1024_1_0_0_1_n_n 1024 rfl rfl).symm k) = ix2 k s :=
    Shape.idx_ext₂ ((rhs_dot_S256x1024_S1024x1024_S256x1024_1_0_0_1_n_n_0 _ _).trans (contrEquiv1_symm_val dot_S256x1024_S1024x1024_S256x1024_1_0_0_1_n_n 1024 rfl rfl k))
      (rhs_dot_S256x1024_S1024x1024_S256x1024_1_0_0_1_n_n_1 _ _)
  rw [e1, e2]

/-! ## Words: an equality test, selected on or converted -/

section Words
variable {α : Type}

/-- The equality test of two equal words is the bit 1 … -/
theorem cmpi_eq_of_eq {x y : BitVec 32} (h : x = y) : IntOp.cmpi .eq x y = 1#1 := by
  subst h
  unfold IntOp.cmpi
  simp
/-- … and of two different words the bit 0. -/
theorem cmpi_eq_of_ne {x y : BitVec 32} (h : ¬x = y) : IntOp.cmpi .eq x y = 0#1 := by
  unfold IntOp.cmpi
  rw [show (x == y) = false from beq_eq_false_iff_ne.mpr h]
  rfl

/-- A select on an equality test of two words is the choice on their equality. -/
theorem select_cmpi_eq (x y : BitVec 32) (a c : α) : Scalar.select (IntOp.cmpi .eq x y) a c = if x = y then a else c := by
  by_cases h : x = y
  · rw [cmpi_eq_of_eq h, if_pos h]; exact select_one a c
  · rw [cmpi_eq_of_ne h, if_neg h]; exact select_zero a c

/-- An equality test of two words, widened and converted, is 1 where they are equal and 0 elsewhere. -/
theorem sitofp_extui_cmpi_eq (x y : BitVec 32) :
    (FloatOps.sitofp (F := Ideal) .f32 ((IntOp.cmpi .eq x y).setWidth 32) : EReal) = if x = y then 1 else 0 := by
  by_cases h : x = y
  · rw [cmpi_eq_of_eq h, if_pos h]
    show ((((1#1 : BitVec 1).setWidth 32).toInt : ℝ) : EReal) = 1
    rw [show ((1#1 : BitVec 1).setWidth 32).toInt = 1 by decide]
    simp
  · rw [cmpi_eq_of_ne h, if_neg h]
    show ((((0#1 : BitVec 1).setWidth 32).toInt : ℝ) : EReal) = 0
    rw [show ((0#1 : BitVec 1).setWidth 32).toInt = 0 by decide]
    simp

end Words

/-! ## A vector repeated as the rows, or as the columns, of a square matrix -/

section Layout
variable {α : Type}

/-- A vector laid as one row and repeated down the rows reads, at (p, q), its entry q. -/
theorem rowB_apply (v : S1024.Idx → α) (p q : Fin 1024) :
    broadcastTo S1024x1024 (shapeCast S1x1024 v shapeCasts_S1024_S1x1024) broadcasts_S1x1024_S1024x1024 (ix2 p q) = v (ix1 q) :=
  (broadcastTo_1b_ab_apply _ _ p q).trans (shapeCast_a_1a_apply v _ 0 q)

/-- A vector laid as one column reads, at (p, u), its entry p. -/
theorem shapeCast_a_a1_apply (v : S1024.Idx → α) (p : Fin 1024) (u : Fin 1) :
    shapeCast S1024x1 v shapeCasts_S1024_S1024x1 (ix2 p u) = v (ix1 p) :=
  shapeCast_apply v _ _ _ (by
    have hu : u.val = 0 := by omega
    rw [Shape.rowMajor_val_two, Shape.rowMajor_val_one]
    show p.val = p.val * 1 + u.val
    rw [hu, Nat.mul_one, Nat.add_zero])

/-- A column repeated along the rows reads, at (p, q), its entry p. -/
theorem broadcastTo_a1_ab_apply (c : S1024x1.Idx → α) (p q : Fin 1024) :
    broadcastTo S1024x1024 c broadcasts_S1024x1_S1024x1024 (ix2 p q) = c (ix2 p (0 : Fin 1)) := by
  refine broadcastTo_apply c _ (ix2 p q) (ix2 p (0 : Fin 1)) fun ax => ?_
  match ax with
  | ⟨0, _⟩ => rfl
  | ⟨1, _⟩ => rfl

/-- A vector laid as one column and repeated along the rows reads, at (p, q), its entry p. -/
theorem colB_apply (v : S1024.Idx → α) (p q : Fin 1024) :
    broadcastTo S1024x1024 (shapeCast S1024x1 v shapeCasts_S1024_S1024x1) broadcasts_S1024x1_S1024x1024 (ix2 p q) = v (ix1 p) :=
  (broadcastTo_a1_ab_apply _ p q).trans (shapeCast_a_a1_apply v p 0)

end Layout

/-! ## The three one-hot matrices at an entry -/

/-- An equality test of two vectors of words, at an index, tests the entries. -/
theorem cmpi_apply {s : Shape} {w : Nat} (p : CmpIPredicate) (a c : IVec s w) (i : s.Idx) :
    cmpi p a c i = IntOp.cmpi p (a i) (c i) := rfl

/-- The selection matrix of the words `w` that carries the rates `k`: column j holds k j in row (w j), zero elsewhere. -/
def ohSel (w : Vec Ideal S1024 .i32) (k : Vec Ideal S1024 .f32) : FVec Ideal S1024x1024 .bf16 :=
  truncf .bf16 (select (cmpi .eq (iota .tc S1024x1024 32 [0] iota_S1024x1024_d0_w32)
      (broadcastTo S1024x1024 (shapeCast S1x1024 (shapeCast S1024 w shapeCasts_S1024_S1024) shapeCasts_S1024_S1x1024)
        broadcasts_S1x1024_S1024x1024))
    (broadcastTo S1024x1024 (shapeCast S1x1024 (shapeCast S1x1024 (shapeCast S1024 k shapeCasts_S1024_S1024)
        shapeCasts_S1024_S1x1024) shapeCasts_S1x1024_S1x1024) broadcasts_S1x1024_S1024x1024)
    (broadcast S1024x1024 (Scalar.ofBits (F := Ideal) .f32 0x00000000#32))) bitsLt_bf16_f32

/-- At (p, q): the rate of reaction q where row p is the species its word names, zero elsewhere. -/
theorem ohSel_apply (w : Vec Ideal S1024 .i32) (k : Vec Ideal S1024 .f32) (p q : Fin 1024) :
    ohSel w k (ix2 p q) = if BitVec.ofNat 32 p.val = w (ix1 q) then k (ix1 q) else 0 := by
  unfold ohSel
  simp only [shapeCast_self]
  rw [truncf_apply, select_apply, cmpi_apply, iota_single_apply, rowB_apply, rowB_apply, broadcast_apply, select_cmpi_eq]
  show (if _ then _ else Ideal.ofBits .f32 0x00000000#32) = _
  rw [Ideal.ofBits_zero_f32]

/-- The selection matrix of the words `w` with ones, rows the species: column j holds 1 in row (w j). -/
def ohRow (w : Vec Ideal S1024 .i32) : FVec Ideal S1024x1024 .bf16 :=
  truncf .bf16 (sitofp .f32 (extui 32 (cmpi .eq (iota .tc S1024x1024 32 [0] iota_S1024x1024_d0_w32)
      (broadcastTo S1024x1024 (shapeCast S1x1024 (shapeCast S1024 w shapeCasts_S1024_S1024) shapeCasts_S1024_S1x1024)
        broadcasts_S1x1024_S1024x1024)) natLt_1_32)) bitsLt_bf16_f32

/-- At (p, q): one where row p is the species the word of reaction q names, zero elsewhere. -/
theorem ohRow_apply (w : Vec Ideal S1024 .i32) (p q : Fin 1024) :
    ohRow w (ix2 p q) = if BitVec.ofNat 32 p.val = w (ix1 q) then 1 else 0 := by
  unfold ohRow
  simp only [shapeCast_self]
  rw [truncf_apply, sitofp_apply, extui_apply, cmpi_apply, iota_single_apply, rowB_apply]
  exact sitofp_extui_cmpi_eq _ _

/-- The scatter matrix of the words `w`: row j holds 1 in column (w j). -/
def ohCol (w : Vec Ideal S1024 .i32) : FVec Ideal S1024x1024 .bf16 :=
  truncf .bf16 (sitofp .f32 (extui 32 (cmpi .eq (iota .tc S1024x1024 32 [1] iota_S1024x1024_d1_w32)
      (broadcastTo S1024x1024 (shapeCast S1024x1 (shapeCast S1024 w shapeCasts_S1024_S1024) shapeCasts_S1024_S1024x1)
        broadcasts_S1024x1_S1024x1024)) natLt_1_32)) bitsLt_bf16_f32

/-- At (p, q): one where column q is the species the word of reaction p names, zero elsewhere. -/
theorem ohCol_apply (w : Vec Ideal S1024 .i32) (p q : Fin 1024) :
    ohCol w (ix2 p q) = if BitVec.ofNat 32 q.val = w (ix1 p) then 1 else 0 := by
  unfold ohCol
  simp only [shapeCast_self]
  rw [truncf_apply, sitofp_apply, extui_apply, cmpi_apply, iota_single_apply, colB_apply]
  exact sitofp_extui_cmpi_eq _ _

/-! ## The products with the one-hot matrices -/

/-- The zero block reads zero. -/
theorem pay2_apply (i : S256x1024.Idx) : k0_pay2 (F := Ideal) i = 0 := by
  unfold k0_pay2
  simp only [shapeCast_self]
  rw [broadcast_apply]
  exact Ideal.ofBits_zero_f32

/-- The abundances' format change is the identity. -/
theorem pay3_apply (y : Vec Ideal S256x1024 .f32) (i : S256x1024.Idx) : k0_pay3 (F := Ideal) y i = y i := rfl

/-- A row of abundances against the rate-carrying selection matrix: the abundance of the species the word names, times the rate. -/
theorem gatherSel_apply (y : Vec Ideal S256x1024 .f32) (w : Vec Ideal S1024 .i32) (k : Vec Ideal S1024 .f32)
    (hw : ∀ j, (w j).toNat < 1024) (b : Fin 256) (j : Fin 1024) :
    matmul dot_S256x1024_S1024x1024_S256x1024_1_0_0_1_n_n none (k0_pay3 (F := Ideal) y) (ohSel w k) (constant (F := Ideal) S256x1024 .f32 0x00000000#32) (ix2 b j)
      = y (ix2 b (col (w (ix1 j)))) * k (ix1 j) := by
  rw [mm_apply]
  simp only [ohSel_apply, pay3_apply]
  exact onehot_gather (fun s' => y (ix2 b s')) (w (ix1 j)) (k (ix1 j)) (hw _)

/-- A row of abundances against the selection matrix of ones: the abundance of the species the word names. -/
theorem gatherRow_apply (y : Vec Ideal S256x1024 .f32) (w : Vec Ideal S1024 .i32)
    (hw : ∀ j, (w j).toNat < 1024) (b : Fin 256) (j : Fin 1024) :
    matmul dot_S256x1024_S1024x1024_S256x1024_1_0_0_1_n_n none (k0_pay3 (F := Ideal) y) (ohRow w) (constant (F := Ideal) S256x1024 .f32 0x00000000#32) (ix2 b j)
      = y (ix2 b (col (w (ix1 j)))) := by
  rw [mm_apply]
  simp only [ohRow_apply, pay3_apply]
  exact (onehot_gather (fun s' => y (ix2 b s')) (w (ix1 j)) 1 (hw _)).trans (mul_one _)

/-- Contributions against the scatter matrix: the contributions whose product word is the column. -/
theorem scatter_apply (c : FVec Ideal S256x1024 .bf16) (w : Vec Ideal S1024 .i32) (b : Fin 256) (s : Fin 1024) :
    matmul dot_S256x1024_S1024x1024_S256x1024_1_0_0_1_n_n none c (ohCol w) (constant (F := Ideal) S256x1024 .f32 0x00000000#32) (ix2 b s)
      = ∑ j ∈ Finset.univ.filter (fun j : Fin 1024 => (w (ix1 j)).toNat = s.val), c (ix2 b j) := by
  rw [mm_apply]
  simp only [ohCol_apply]
  exact onehot_scatter (fun j => c (ix2 b j)) (fun j => w (ix1 j)) s

/-! ## The body's blocks at an entry -/

/-- The second-order tile's scatter matrix. -/
theorem pay6_eq (ip2 : Vec Ideal S1024 .i32) : k0_pay6 (F := Ideal) ip2 = ohCol ip2 := rfl

/-- The second-order tile's contributions: at (b, j) the two reactants' abundances and the rate, multiplied. -/
theorem pay5_apply (y : Vec Ideal S256x1024 .f32) (i20 i21 : Vec Ideal S1024 .i32) (k2 : Vec Ideal S1024 .f32)
    (h20 : ∀ j, (i20 j).toNat < 1024) (h21 : ∀ j, (i21 j).toNat < 1024) (b : Fin 256) (j : Fin 1024) :
    k0_pay5 (F := Ideal) y i20 i21 k2 (ix2 b j)
      = y (ix2 b (col (i20 (ix1 j)))) * y (ix2 b (col (i21 (ix1 j)))) * k2 (ix1 j) := by
  have e : k0_pay5 (F := Ideal) y i20 i21 k2 (ix2 b j)
      = matmul dot_S256x1024_S1024x1024_S256x1024_1_0_0_1_n_n none (k0_pay3 (F := Ideal) y) (ohRow i20) (constant (F := Ideal) S256x1024 .f32 0x00000000#32) (ix2 b j)
        * matmul dot_S256x1024_S1024x1024_S256x1024_1_0_0_1_n_n none (k0_pay3 (F := Ideal) y) (ohSel i21 k2) (constant (F := Ideal) S256x1024 .f32 0x00000000#32) (ix2 b j) := rfl
  rw [e, gatherRow_apply y i20 h20, gatherSel_apply y i21 k2 h21, mul_assoc]

/-- The accumulation of the second-order tile: what the accumulator held plus the contributions landing on `s`. -/
theorem pay1_apply (c : FVec Ideal S256x1024 .bf16) (w : Vec Ideal S1024 .i32) (a : Vec Ideal S256x1024 .f32)
    (b : Fin 256) (s : Fin 1024) :
    k0_pay1 (F := Ideal) c (ohCol w) a (ix2 b s)
      = a (ix2 b s) + ∑ j ∈ Finset.univ.filter (fun j : Fin 1024 => (w (ix1 j)).toNat = s.val), c (ix2 b j) := by
  unfold k0_pay1
  simp only [shapeCast_self]
  rw [addf_apply, scatter_apply]

/-- The accumulation of the first-order tile: what the accumulator held plus the contributions landing on `s`. -/
theorem pay4_apply (y : Vec Ideal S256x1024 .f32) (ir1 ip1 : Vec Ideal S1024 .i32) (k1 : Vec Ideal S1024 .f32)
    (a : Vec Ideal S256x1024 .f32) (h1 : ∀ j, (ir1 j).toNat < 1024) (b : Fin 256) (s : Fin 1024) :
    k0_pay4 (F := Ideal) y ir1 ip1 k1 a (ix2 b s)
      = a (ix2 b s) + ∑ j ∈ Finset.univ.filter (fun j : Fin 1024 => (ip1 (ix1 j)).toNat = s.val),
          y (ix2 b (col (ir1 (ix1 j)))) * k1 (ix1 j) := by
  have e : k0_pay4 (F := Ideal) y ir1 ip1 k1 a
      = shapeCast S256x1024 (addf a (matmul dot_S256x1024_S1024x1024_S256x1024_1_0_0_1_n_n none
          (truncf .bf16 (matmul dot_S256x1024_S1024x1024_S256x1024_1_0_0_1_n_n none (k0_pay3 (F := Ideal) y) (ohSel ir1 k1)
            (constant (F := Ideal) S256x1024 .f32 0x00000000#32)) bitsLt_bf16_f32)
          (ohCol ip1) (constant (F := Ideal) S256x1024 .f32 0x00000000#32))) shapeCasts_S256x1024_S256x1024 := rfl
  rw [e, shapeCast_self, addf_apply, scatter_apply]
  refine congrArg (a (ix2 b s) + ·) (Finset.sum_congr rfl fun j _ => ?_)
  rw [truncf_apply]
  exact gatherSel_apply y ir1 k1 h1 b j

/-! ## One point's update -/

/-- The accumulator after a point of reaction tile `r`, at entry (b, s): what it held (zero at the first tile), plus the
    first-order tile's contributions landing on `s` while `r < 49`, plus the second-order tile's. The tile's reactant
    indices are species ids. -/
theorem accStep_apply (r : ℕ) (acc y : Vec Ideal S256x1024 .f32) (ir1 ip1 : Vec Ideal S1024 .i32) (k1 : Vec Ideal S1024 .f32)
    (i20 i21 ip2 : Vec Ideal S1024 .i32) (k2 : Vec Ideal S1024 .f32)
    (h1 : ∀ j, (ir1 j).toNat < 1024) (h20 : ∀ j, (i20 j).toNat < 1024) (h21 : ∀ j, (i21 j).toNat < 1024)
    (b : Fin 256) (s : Fin 1024) :
    accStep (F := Ideal) r acc y ir1 ip1 k1 i20 i21 ip2 k2 (ix2 b s)
      = ((if r = 0 then (0 : EReal) else acc (ix2 b s))
          + (if r < 49 then ∑ j ∈ Finset.univ.filter (fun j : Fin 1024 => (ip1 (ix1 j)).toNat = s.val),
                y (ix2 b (col (ir1 (ix1 j)))) * k1 (ix1 j) else 0))
        + ∑ j ∈ Finset.univ.filter (fun j : Fin 1024 => (ip2 (ix1 j)).toNat = s.val),
            y (ix2 b (col (i20 (ix1 j)))) * y (ix2 b (col (i21 (ix1 j)))) * k2 (ix1 j) := by
  -- the accumulator the point starts from: zero at the first tile, else what it found
  have hA : (if r = 0 then k0_pay2 (F := Ideal) else acc) (ix2 b s) = if r = 0 then (0 : EReal) else acc (ix2 b s) := by
    by_cases h0 : r = 0
    · rw [if_pos h0, if_pos h0]; exact pay2_apply _
    · rw [if_neg h0, if_neg h0]
  unfold accStep
  rw [pay6_eq, pay1_apply]
  refine congrArg₂ (· + ·) ?_ (Finset.sum_congr rfl fun j _ => pay5_apply y i20 i21 k2 h20 h21 b j)
  by_cases h49 : r < 49
  · rw [if_pos h49, if_pos h49, pay4_apply y ir1 ip1 k1 _ h1, hA]
  · rw [if_neg h49, if_neg h49, hA, add_zero]

end Cert.Proof.KI

end
-- ==== Proof.KI.Pads.lean ====
import proofs.«415795_j59304908423466_2_alg».proof.Proof.KI.Data
import Idealize.ShloMosaic.Lib.ValueIdx
import Idealize.ShloMosaic.Lib.Pipeline.Value
import Idealize.ShloMosaic.Lib.StableHlo.Run
import Idealize.ShloMosaic.Lib.KernelVsHost
import Idealize.ShloMosaic.PureOps.Ideal.Laws
/-
  What the region finds in its arrays, at the ideal instance: each index and rate array zero-padded to 98 tiles of 1024
  by the host lines before the region, and each window's block at a grid point as a slice of its array.
-/

noncomputable section

open scoped BigOperators

namespace Cert.Proof.KI
open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-! ## The padded arrays -/

/-- A rank-one array padded at its end (nothing before it, nothing between its entries), read at an entry: the array's
    entry below the array's length, the padding value from there on. -/
theorem pad1_apply {α : Type} {A B : Nat} (hi : Nat) (x : (⟨1, ![A]⟩ : Shape).Idx → α) (v : S_.Idx → α)
    (h : (⟨1, ![A]⟩ : Shape).Pads (![0] : Fin 1 → Nat) ![hi] ![0] ⟨1, ![B]⟩) (hu : 0 < S_.numel) (n : Fin B) :
    pad ⟨1, ![B]⟩ ![0] ![hi] ![0] x v h hu (ix1 n)
      = if hn : n.val < A then x (ix1 ⟨n.val, hn⟩) else v (Shape.Idx.first hu) := by
  by_cases hn : n.val < A
  · rw [dif_pos hn]
    refine pad_apply_of_inside _ _ _ x v h hu (ix1 n) (ix1 ⟨n.val, hn⟩) (fun a => ?_)
    match a with
    | ⟨0, _⟩ => show n.val = 0 + n.val * (0 + 1); omega
  · rw [dif_neg hn]
    refine pad_apply_of_not_inside _ _ _ x v h hu (ix1 n) 0 ?_
    show ¬(0 ≤ n.val ∧ (n.val - 0) % (0 + 1) = 0 ∧ (n.val - 0) / (0 + 1) < A)
    rw [Nat.sub_zero, Nat.zero_add, Nat.div_one]
    exact fun hh => hn hh.2.2

/-! Each padded array as the host lines compute it: the argument array padded at its end with the zero constant. -/

theorem V_v0_e (c : Dev nD) :
    (V m c main_v0 : S100352.Idx → BitVec 32)
      = pad S100352 ![0] ![50352] ![0] (m ((c : Thread nD τ).loc main_arg2) : S50000.Idx → BitVec 32) (constantI S_ 32 0#32)
          pads_S50000_S100352_0503520 h_S_ := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    List.flatten_cons, List.flatten_nil, List.append_nil, List.cons_append, List.nil_append]
  after_results
  rfl
theorem V_v1_e (c : Dev nD) :
    (V m c main_v1 : S100352.Idx → BitVec 32)
      = pad S100352 ![0] ![50352] ![0] (m ((c : Thread nD τ).loc main_arg3) : S50000.Idx → BitVec 32) (constantI S_ 32 0#32)
          pads_S50000_S100352_0503520 h_S_ := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    List.flatten_cons, List.flatten_nil, List.append_nil, List.cons_append, List.nil_append]
  after_results
  rfl
theorem V_v2_e (c : Dev nD) :
    (V m c main_v2 : S100352.Idx → EReal)
      = pad S100352 ![0] ![50352] ![0] (m ((c : Thread nD τ).loc main_arg4) : S50000.Idx → EReal) (constant (F := Ideal) S_ .f32 0x00000000#32)
          pads_S50000_S100352_0503520 h_S_ := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    List.flatten_cons, List.flatten_nil, List.append_nil, List.cons_append, List.nil_append]
  after_results
  rfl
theorem V_v3_e (c : Dev nD) :
    (V m c main_v3 : S100352.Idx → BitVec 32)
      = pad S100352 ![0] ![352] ![0] (m ((c : Thread nD τ).loc main_arg5) : S100000.Idx → BitVec 32) (constantI S_ 32 0#32)
          pads_S100000_S100352_03520 h_S_ := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    List.flatten_cons, List.flatten_nil, List.append_nil, List.cons_append, List.nil_append]
  after_results
  rfl
theorem V_v4_e (c : Dev nD) :
    (V m c main_v4 : S100352.Idx → BitVec 32)
      = pad S100352 ![0] ![352] ![0] (m ((c : Thread nD τ).loc main_arg6) : S100000.Idx → BitVec 32) (constantI S_ 32 0#32)
          pads_S100000_S100352_03520 h_S_ := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    List.flatten_cons, List.flatten_nil, List.append_nil, List.cons_append, List.nil_append]
  after_results
  rfl
theorem V_v5_e (c : Dev nD) :
    (V m c main_v5 : S100352.Idx → BitVec 32)
      = pad S100352 ![0] ![352] ![0] (m ((c : Thread nD τ).loc main_arg7) : S100000.Idx → BitVec 32) (constantI S_ 32 0#32)
          pads_S100000_S100352_03520 h_S_ := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    List.flatten_cons, List.flatten_nil, List.append_nil, List.cons_append, List.nil_append]
  after_results
  rfl
theorem V_v6_e (c : Dev nD) :
    (V m c main_v6 : S100352.Idx → EReal)
      = pad S100352 ![0] ![352] ![0] (m ((c : Thread nD τ).loc main_arg8) : S100000.Idx → EReal) (constant (F := Ideal) S_ .f32 0x00000000#32)
          pads_S100000_S100352_03520 h_S_ := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    List.flatten_cons, List.flatten_nil, List.append_nil, List.cons_append, List.nil_append]
  after_results
  rfl

/-- The first-order arrays (50000 long) padded with zeros to 100352. -/
theorem V_v0 (c : Dev nD) (n : Fin 100352) :
    (V m c main_v0 : S100352.Idx → BitVec 32) (ix1 n)
      = if h : n.val < 50000 then (m ((c : Thread nD τ).loc main_arg2) : S50000.Idx → BitVec 32) (ix1 ⟨n.val, h⟩) else 0#32 := by
  rw [V_v0_e m c]
  exact pad1_apply 50352 _ _ pads_S50000_S100352_0503520 h_S_ n
theorem V_v1 (c : Dev nD) (n : Fin 100352) :
    (V m c main_v1 : S100352.Idx → BitVec 32) (ix1 n)
      = if h : n.val < 50000 then (m ((c : Thread nD τ).loc main_arg3) : S50000.Idx → BitVec 32) (ix1 ⟨n.val, h⟩) else 0#32 := by
  rw [V_v1_e m c]
  exact pad1_apply 50352 _ _ pads_S50000_S100352_0503520 h_S_ n
theorem V_v2 (c : Dev nD) (n : Fin 100352) :
    (V m c main_v2 : S100352.Idx → EReal) (ix1 n)
      = if h : n.val < 50000 then ((m ((c : Thread nD τ).loc main_arg4) : S50000.Idx → EReal) (ix1 ⟨n.val, h⟩) : EReal) else (0 : EReal) := by
  rw [V_v2_e m c]
  refine (pad1_apply 50352 _ _ pads_S50000_S100352_0503520 h_S_ n).trans ?_
  rw [constant_apply, Ideal.ofBits_zero_f32]
/-- The second-order arrays (100000 long) padded with zeros to 100352. -/
theorem V_v3 (c : Dev nD) (n : Fin 100352) :
    (V m c main_v3 : S100352.Idx → BitVec 32) (ix1 n)
      = if h : n.val < 100000 then (m ((c : Thread nD τ).loc main_arg5) : S100000.Idx → BitVec 32) (ix1 ⟨n.val, h⟩) else 0#32 := by
  rw [V_v3_e m c]
  exact pad1_apply 352 _ _ pads_S100000_S100352_03520 h_S_ n
theorem V_v4 (c : Dev nD) (n : Fin 100352) :
    (V m c main_v4 : S100352.Idx → BitVec 32) (ix1 n)
      = if h : n.val < 100000 then (m ((c : Thread nD τ).loc main_arg6) : S100000.Idx → BitVec 32) (ix1 ⟨n.val, h⟩) else 0#32 := by
  rw [V_v4_e m c]
  exact pad1_apply 352 _ _ pads_S100000_S100352_03520 h_S_ n
theorem V_v5 (c : Dev nD) (n : Fin 100352) :
    (V m c main_v5 : S100352.Idx → BitVec 32) (ix1 n)
      = if h : n.val < 100000 then (m ((c : Thread nD τ).loc main_arg7) : S100000.Idx → BitVec 32) (ix1 ⟨n.val, h⟩) else 0#32 := by
  rw [V_v5_e m c]
  exact pad1_apply 352 _ _ pads_S100000_S100352_03520 h_S_ n
theorem V_v6 (c : Dev nD) (n : Fin 100352) :
    (V m c main_v6 : S100352.Idx → EReal) (ix1 n)
      = if h : n.val < 100000 then ((m ((c : Thread nD τ).loc main_arg8) : S100000.Idx → EReal) (ix1 ⟨n.val, h⟩) : EReal) else (0 : EReal) := by
  rw [V_v6_e m c]
  refine (pad1_apply 352 _ _ pads_S100000_S100352_03520 h_S_ n).trans ?_
  rw [constant_apply, Ideal.ofBits_zero_f32]

/-! ## The blocks -/

/-- Point `t` is batch tile `t / 98`, reaction tile `t % 98`. -/
theorem rOf_eq (t : Fin cfg0.N) : rOf t = t.val % 98 :=
  (by decide +kernel : ∀ t : Fin grid0.N, (grid0.coords t 1).val = t.val % 98) t
theorem t_lt (t : Fin cfg0.N) : t.val < 196 := by
  have h := t.isLt
  have e : cfg0.N = 196 := Gen.N_0
  omega

/-- The block index of each window at point `t`: the abundance window's row block is the batch tile and its column
    block the only one; every tile window's block is the reaction tile. -/
theorem idx0_0 : ∀ t : Fin cfg0.N, win0_0.index t (0 : Fin 2) = t.val / 98 :=
  (by decide +kernel : ∀ t : Fin grid0.N, _)
theorem idx0_1 : ∀ t : Fin cfg0.N, win0_0.index t (1 : Fin 2) = 0 :=
  (by decide +kernel : ∀ t : Fin grid0.N, _)
theorem idx1 : ∀ t : Fin cfg0.N, win0_1.index t (0 : Fin 1) = t.val % 98 :=
  (by decide +kernel : ∀ t : Fin grid0.N, _)
theorem idx2 : ∀ t : Fin cfg0.N, win0_2.index t (0 : Fin 1) = t.val % 98 :=
  (by decide +kernel : ∀ t : Fin grid0.N, _)
theorem idx3 : ∀ t : Fin cfg0.N, win0_3.index t (0 : Fin 1) = t.val % 98 :=
  (by decide +kernel : ∀ t : Fin grid0.N, _)
theorem idx4 : ∀ t : Fin cfg0.N, win0_4.index t (0 : Fin 1) = t.val % 98 :=
  (by decide +kernel : ∀ t : Fin grid0.N, _)
theorem idx5 : ∀ t : Fin cfg0.N, win0_5.index t (0 : Fin 1) = t.val % 98 :=
  (by decide +kernel : ∀ t : Fin grid0.N, _)
theorem idx6 : ∀ t : Fin cfg0.N, win0_6.index t (0 : Fin 1) = t.val % 98 :=
  (by decide +kernel : ∀ t : Fin grid0.N, _)
theorem idx7 : ∀ t : Fin cfg0.N, win0_7.index t (0 : Fin 1) = t.val % 98 :=
  (by decide +kernel : ∀ t : Fin grid0.N, _)

/-- The abundance block of point `t`: rows `256 · (t / 98) …` of the argument. -/
theorem yB_apply (c : Dev nD) (t : Fin cfg0.N) (b : Fin 256) (s : Fin 1024) :
    yB m c t (ix2 b s)
      = (m ((c : Thread nD τ).loc main_arg1) : S512x1024.Idx → EReal)
          (ix2 ⟨t.val / 98 * 256 + b.val, by have := t_lt t; omega⟩ s) := by
  have hV : (V m c main_arg1 : S512x1024.Idx → EReal) = (m ((c : Thread nD τ).loc main_arg1) : S512x1024.Idx → EReal) :=
    Gen.V_main_arg1 m c
  show (V m c main_arg1 : S512x1024.Idx → EReal) (((cfg0.win 0).blk t).view.emb (ix2 b s)) = _
  rw [hV]
  refine congrArg _ (funext fun a => Fin.ext ?_)
  match a with
  | ⟨0, _⟩ =>
    show win0_0.index t (0 : Fin 2) * 256 + 1 * b.val = t.val / 98 * 256 + b.val
    rw [idx0_0 t]; omega
  | ⟨1, _⟩ =>
    show win0_0.index t (1 : Fin 2) * 1024 + 1 * s.val = s.val
    rw [idx0_1 t]; omega

/-- Each tile block of point `t`: entries `1024 · (t % 98) …` of its padded array. -/
theorem ir1B_apply (c : Dev nD) (t : Fin cfg0.N) (j : Fin 1024) :
    ir1B m c t (ix1 j) = (V m c main_v0 : S100352.Idx → BitVec 32) (ix1 ⟨t.val % 98 * 1024 + j.val, by omega⟩) := by
  show V m c main_v0 (((cfg0.win 1).blk t).view.emb (ix1 j)) = V m c main_v0 (ix1 ⟨t.val % 98 * 1024 + j.val, by omega⟩)
  refine congrArg _ (funext fun a => Fin.ext ?_)
  match a with
  | ⟨0, _⟩ =>
    show win0_1.index t (0 : Fin 1) * 1024 + 1 * j.val = t.val % 98 * 1024 + j.val
    rw [idx1 t]; omega
theorem ip1B_apply (c : Dev nD) (t : Fin cfg0.N) (j : Fin 1024) :
    ip1B m c t (ix1 j) = (V m c main_v1 : S100352.Idx → BitVec 32) (ix1 ⟨t.val % 98 * 1024 + j.val, by omega⟩) := by
  show V m c main_v1 (((cfg0.win 2).blk t).view.emb (ix1 j)) = V m c main_v1 (ix1 ⟨t.val % 98 * 1024 + j.val, by omega⟩)
  refine congrArg _ (funext fun a => Fin.ext ?_)
  match a with
  | ⟨0, _⟩ =>
    show win0_2.index t (0 : Fin 1) * 1024 + 1 * j.val = t.val % 98 * 1024 + j.val
    rw [idx2 t]; omega
theorem k1B_apply (c : Dev nD) (t : Fin cfg0.N) (j : Fin 1024) :
    k1B m c t (ix1 j) = (V m c main_v2 : S100352.Idx → EReal) (ix1 ⟨t.val % 98 * 1024 + j.val, by omega⟩) := by
  show V m c main_v2 (((cfg0.win 3).blk t).view.emb (ix1 j)) = V m c main_v2 (ix1 ⟨t.val % 98 * 1024 + j.val, by omega⟩)
  refine congrArg _ (funext fun a => Fin.ext ?_)
  match a with
  | ⟨0, _⟩ =>
    show win0_3.index t (0 : Fin 1) * 1024 + 1 * j.val = t.val % 98 * 1024 + j.val
    rw [idx3 t]; omega
theorem i20B_apply (c : Dev nD) (t : Fin cfg0.N) (j : Fin 1024) :
    i20B m c t (ix1 j) = (V m c main_v3 : S100352.Idx → BitVec 32) (ix1 ⟨t.val % 98 * 1024 + j.val, by omega⟩) := by
  show V m c main_v3 (((cfg0.win 4).blk t).view.emb (ix1 j)) = V m c main_v3 (ix1 ⟨t.val % 98 * 1024 + j.val, by omega⟩)
  refine congrArg _ (funext fun a => Fin.ext ?_)
  match a with
  | ⟨0, _⟩ =>
    show win0_4.index t (0 : Fin 1) * 1024 + 1 * j.val = t.val % 98 * 1024 + j.val
    rw [idx4 t]; omega
theorem i21B_apply (c : Dev nD) (t : Fin cfg0.N) (j : Fin 1024) :
    i21B m c t (ix1 j) = (V m c main_v4 : S100352.Idx → BitVec 32) (ix1 ⟨t.val % 98 * 1024 + j.val, by omega⟩) := by
  show V m c main_v4 (((cfg0.win 5).blk t).view.emb (ix1 j)) = V m c main_v4 (ix1 ⟨t.val % 98 * 1024 + j.val, by omega⟩)
  refine congrArg _ (funext fun a => Fin.ext ?_)
  match a with
  | ⟨0, _⟩ =>
    show win0_5.index t (0 : Fin 1) * 1024 + 1 * j.val = t.val % 98 * 1024 + j.val
    rw [idx5 t]; omega
theorem ip2B_apply (c : Dev nD) (t : Fin cfg0.N) (j : Fin 1024) :
    ip2B m c t (ix1 j) = (V m c main_v5 : S100352.Idx → BitVec 32) (ix1 ⟨t.val % 98 * 1024 + j.val, by omega⟩) := by
  show V m c main_v5 (((cfg0.win 6).blk t).view.emb (ix1 j)) = V m c main_v5 (ix1 ⟨t.val % 98 * 1024 + j.val, by omega⟩)
  refine congrArg _ (funext fun a => Fin.ext ?_)
  match a with
  | ⟨0, _⟩ =>
    show win0_6.index t (0 : Fin 1) * 1024 + 1 * j.val = t.val % 98 * 1024 + j.val
    rw [idx6 t]; omega
theorem k2B_apply (c : Dev nD) (t : Fin cfg0.N) (j : Fin 1024) :
    k2B m c t (ix1 j) = (V m c main_v6 : S100352.Idx → EReal) (ix1 ⟨t.val % 98 * 1024 + j.val, by omega⟩) := by
  show V m c main_v6 (((cfg0.win 7).blk t).view.emb (ix1 j)) = V m c main_v6 (ix1 ⟨t.val % 98 * 1024 + j.val, by omega⟩)
  refine congrArg _ (funext fun a => Fin.ext ?_)
  match a with
  | ⟨0, _⟩ =>
    show win0_7.index t (0 : Fin 1) * 1024 + 1 * j.val = t.val % 98 * 1024 + j.val
    rw [idx7 t]; omega

end Cert.Proof.KI

end
-- ==== Proof.KI.Fold.lean ====
import proofs.«415795_j59304908423466_2_alg».proof.Proof.KI.Pay
import proofs.«415795_j59304908423466_2_alg».proof.Proof.KI.Pads
/-
  The result array after the idealized kernel's run is the specification: the accumulator after the last reaction tile of
  each batch tile is the sum over the 98 tiles, the two batch tiles' blocks cover the array, and the padded reactions add zero.
-/

noncomputable section

open scoped BigOperators

namespace Cert.Proof.KI
open Cert.KernelIdeal Cert.KernelIdeal.Gen Cert.Proof.Spec
open Idealize.ShloMosaic Idealize.ShloMosaic.TcCoe Idealize.ShloMosaic.ValueIdx Idealize.SL.Sem

variable (m : (ℓ : Loc nD τ sig) → Buf (Elt Ideal) ℓ)

/-! ## The padded arrays as functions of a natural position -/

/-- The first-order reactant words, zero beyond the 50000 real reactions. -/
def ir1P (c : Dev nD) (n : ℕ) : BitVec 32 :=
  if h : n < 50000 then (m ((c : Thread nD τ).loc main_arg2) : S50000.Idx → BitVec 32) (ix1 ⟨n, h⟩) else 0#32
/-- The first-order product words, zero beyond the real reactions. -/
def ip1P (c : Dev nD) (n : ℕ) : BitVec 32 :=
  if h : n < 50000 then (m ((c : Thread nD τ).loc main_arg3) : S50000.Idx → BitVec 32) (ix1 ⟨n, h⟩) else 0#32
/-- The first-order rates, zero beyond the real reactions. -/
def k1P (c : Dev nD) (n : ℕ) : EReal :=
  if h : n < 50000 then ((m ((c : Thread nD τ).loc main_arg4) : S50000.Idx → EReal) (ix1 ⟨n, h⟩) : EReal) else (0 : EReal)
/-- The second-order reactant words (first factor), zero beyond the 100000 real reactions. -/
def i20P (c : Dev nD) (n : ℕ) : BitVec 32 :=
  if h : n < 100000 then (m ((c : Thread nD τ).loc main_arg5) : S100000.Idx → BitVec 32) (ix1 ⟨n, h⟩) else 0#32
/-- The second-order reactant words (second factor), zero beyond the real reactions. -/
def i21P (c : Dev nD) (n : ℕ) : BitVec 32 :=
  if h : n < 100000 then (m ((c : Thread nD τ).loc main_arg6) : S100000.Idx → BitVec 32) (ix1 ⟨n, h⟩) else 0#32
/-- The second-order product words, zero beyond the real reactions. -/
def ip2P (c : Dev nD) (n : ℕ) : BitVec 32 :=
  if h : n < 100000 then (m ((c : Thread nD τ).loc main_arg7) : S100000.Idx → BitVec 32) (ix1 ⟨n, h⟩) else 0#32
/-- The second-order rates, zero beyond the real reactions. -/
def k2P (c : Dev nD) (n : ℕ) : EReal :=
  if h : n < 100000 then ((m ((c : Thread nD τ).loc main_arg8) : S100000.Idx → EReal) (ix1 ⟨n, h⟩) : EReal) else (0 : EReal)
/-- The abundances by natural row, zero beyond the 512 rows. -/
def yP (c : Dev nD) (B : ℕ) (s : Fin 1024) : EReal :=
  if hB : B < 512 then (m ((c : Thread nD τ).loc main_arg1) : S512x1024.Idx → EReal) (ix2 ⟨B, hB⟩ s) else 0

/-- Each tile block entry of point `t` is the padded array at position `(t % 98) · 1024 + j`. -/
theorem ir1B_pad (c : Dev nD) (t : Fin cfg0.N) (j : Fin 1024) : ir1B m c t (ix1 j) = ir1P m c (t.val % 98 * 1024 + j.val) :=
  (ir1B_apply m c t j).trans (V_v0 m c _)
theorem ip1B_pad (c : Dev nD) (t : Fin cfg0.N) (j : Fin 1024) : ip1B m c t (ix1 j) = ip1P m c (t.val % 98 * 1024 + j.val) :=
  (ip1B_apply m c t j).trans (V_v1 m c _)
theorem k1B_pad (c : Dev nD) (t : Fin cfg0.N) (j : Fin 1024) : k1B m c t (ix1 j) = k1P m c (t.val % 98 * 1024 + j.val) :=
  (k1B_apply m c t j).trans (V_v2 m c _)
theorem i20B_pad (c : Dev nD) (t : Fin cfg0.N) (j : Fin 1024) : i20B m c t (ix1 j) = i20P m c (t.val % 98 * 1024 + j.val) :=
  (i20B_apply m c t j).trans (V_v3 m c _)
theorem i21B_pad (c : Dev nD) (t : Fin cfg0.N) (j : Fin 1024) : i21B m c t (ix1 j) = i21P m c (t.val % 98 * 1024 + j.val) :=
  (i21B_apply m c t j).trans (V_v4 m c _)
theorem ip2B_pad (c : Dev nD) (t : Fin cfg0.N) (j : Fin 1024) : ip2B m c t (ix1 j) = ip2P m c (t.val % 98 * 1024 + j.val) :=
  (ip2B_apply m c t j).trans (V_v5 m c _)
theorem k2B_pad (c : Dev nD) (t : Fin cfg0.N) (j : Fin 1024) : k2B m c t (ix1 j) = k2P m c (t.val % 98 * 1024 + j.val) :=
  (k2B_apply m c t j).trans (V_v6 m c _)
/-- The abundance block's row `b` at point `t` is row `(t / 98) · 256 + b` of the argument. -/
theorem yB_pad (c : Dev nD) (t : Fin cfg0.N) (b : Fin 256) (s : Fin 1024) :
    yB m c t (ix2 b s) = yP m c (t.val / 98 * 256 + b.val) s := by
  have hlt : t.val / 98 * 256 + b.val < 512 := by have := t_lt t; omega
  rw [yB_apply]
  unfold yP
  rw [dif_pos hlt]

/-- The padded reactant words are species ids: a real one by the precondition, a pad is zero. -/
theorem ir1P_lt (c : Dev nD) (h : ∀ j, ((m ((c : Thread nD τ).loc main_arg2) : S50000.Idx → BitVec 32) j).toNat < 1024) (n : ℕ) :
    (ir1P m c n).toNat < 1024 := by
  unfold ir1P
  split
  · exact h _
  · decide
theorem i20P_lt (c : Dev nD) (h : ∀ j, ((m ((c : Thread nD τ).loc main_arg5) : S100000.Idx → BitVec 32) j).toNat < 1024) (n : ℕ) :
    (i20P m c n).toNat < 1024 := by
  unfold i20P
  split
  · exact h _
  · decide
theorem i21P_lt (c : Dev nD) (h : ∀ j, ((m ((c : Thread nD τ).loc main_arg6) : S100000.Idx → BitVec 32) j).toNat < 1024) (n : ℕ) :
    (i21P m c n).toNat < 1024 := by
  unfold i21P
  split
  · exact h _
  · decide

/-! ## One point's update, over the padded arrays -/

/-- The padded first-order reaction at position `n`: its contribution to row `B`. -/
def f1 (c : Dev nD) (B n : ℕ) : EReal := yP m c B (col (ir1P m c n)) * k1P m c n
/-- The padded second-order reaction at position `n`: its contribution to row `B`. -/
def f2 (c : Dev nD) (B n : ℕ) : EReal := yP m c B (col (i20P m c n)) * yP m c B (col (i21P m c n)) * k2P m c n

/-- What reaction tile `r` of the first-order reactions adds to entry (B, s): nothing from tile 49 on. -/
def Q1 (c : Dev nD) (B s r : ℕ) : EReal :=
  if r < 49 then ∑ j ∈ (Finset.univ : Finset (Fin 1024)).filter (fun j => (ip1P m c (r * 1024 + j.val)).toNat = s), f1 m c B (r * 1024 + j.val)
  else 0
/-- What reaction tile `r` of the second-order reactions adds to entry (B, s). -/
def Q2 (c : Dev nD) (B s r : ℕ) : EReal :=
  ∑ j ∈ (Finset.univ : Finset (Fin 1024)).filter (fun j => (ip2P m c (r * 1024 + j.val)).toNat = s), f2 m c B (r * 1024 + j.val)

/-- One point's update at entry (b, s): what the accumulator held (zero at the first tile) plus the tile's two contributions. -/
theorem stepAt_apply (c : Dev nD)
    (h : InRange (m ((c : Thread nD τ).loc main_arg2)) (m ((c : Thread nD τ).loc main_arg3))
      (m ((c : Thread nD τ).loc main_arg5)) (m ((c : Thread nD τ).loc main_arg6)) (m ((c : Thread nD τ).loc main_arg7)))
    (t : Fin cfg0.N) (acc : Vec Ideal S256x1024 .f32) (b : Fin 256) (s : Fin 1024) :
    stepAt m c t acc (ix2 b s)
      = ((if t.val % 98 = 0 then (0 : EReal) else acc (ix2 b s)) + Q1 m c (t.val / 98 * 256 + b.val) s.val (t.val % 98))
        + Q2 m c (t.val / 98 * 256 + b.val) s.val (t.val % 98) := by
  have h1 : ∀ j, (ir1B m c t j).toNat < 1024 := fun j => by
    obtain ⟨q, rfl⟩ : ∃ q : Fin 1024, j = ix1 q := ⟨j 0, eq_ix1 j⟩
    rw [ir1B_pad]; exact ir1P_lt m c h.ir1 _
  have h20 : ∀ j, (i20B m c t j).toNat < 1024 := fun j => by
    obtain ⟨q, rfl⟩ : ∃ q : Fin 1024, j = ix1 q := ⟨j 0, eq_ix1 j⟩
    rw [i20B_pad]; exact i20P_lt m c h.i20 _
  have h21 : ∀ j, (i21B m c t j).toNat < 1024 := fun j => by
    obtain ⟨q, rfl⟩ : ∃ q : Fin 1024, j = ix1 q := ⟨j 0, eq_ix1 j⟩
    rw [i21B_pad]; exact i21P_lt m c h.i21 _
  unfold stepAt
  rw [accStep_apply (rOf t) acc (yB m c t) (ir1B m c t) (ip1B m c t) (k1B m c t) (i20B m c t) (i21B m c t) (ip2B m c t)
    (k2B m c t) h1 h20 h21 b s, rOf_eq]
  unfold Q1 Q2 f1 f2
  simp only [ir1B_pad, ip1B_pad, k1B_pad, i20B_pad, i21B_pad, ip2B_pad, k2B_pad, yB_pad]

/-! ## The accumulator after each point -/

/-- After point `n` (reaction tile `n % 98` of batch tile `n / 98`) the accumulator's entry (b, s) holds the contributions of
    the reaction tiles up to `n % 98` to row `(n / 98) · 256 + b`. -/
theorem accAt_apply (c : Dev nD)
    (h : InRange (m ((c : Thread nD τ).loc main_arg2)) (m ((c : Thread nD τ).loc main_arg3))
      (m ((c : Thread nD τ).loc main_arg5)) (m ((c : Thread nD τ).loc main_arg6)) (m ((c : Thread nD τ).loc main_arg7)))
    (b : Fin 256) (s : Fin 1024) : ∀ (n : ℕ) (hn : n < cfg0.N),
    accAt m c n hn (ix2 b s)
      = ∑ r ∈ Finset.range (n % 98 + 1), Q1 m c (n / 98 * 256 + b.val) s.val r
        + ∑ r ∈ Finset.range (n % 98 + 1), Q2 m c (n / 98 * 256 + b.val) s.val r
  | 0, hn => by
    rw [accAt_zero, stepAt_apply m c h]
    show ((if 0 % 98 = 0 then (0 : EReal) else _) + Q1 m c (0 / 98 * 256 + b.val) s.val (0 % 98)) + Q2 m c (0 / 98 * 256 + b.val) s.val (0 % 98) = _
    rw [if_pos rfl, zero_add, show 0 % 98 = 0 from rfl, Finset.sum_range_one, Finset.sum_range_one]
  | n + 1, hn => by
    rw [accAt_succ, stepAt_apply m c h]
    show ((if (n + 1) % 98 = 0 then (0 : EReal) else _) + Q1 m c ((n + 1) / 98 * 256 + b.val) s.val ((n + 1) % 98))
      + Q2 m c ((n + 1) / 98 * 256 + b.val) s.val ((n + 1) % 98) = _
    by_cases h0 : (n + 1) % 98 = 0
    · rw [if_pos h0, zero_add, h0, Finset.sum_range_one, Finset.sum_range_one]
    · have e1 : (n + 1) % 98 = n % 98 + 1 := by omega
      have e2 : (n + 1) / 98 = n / 98 := by omega
      rw [if_neg h0, accAt_apply c h b s n (Nat.lt_of_succ_lt hn), e1, e2, Finset.sum_range_succ _ (n % 98 + 1),
        Finset.sum_range_succ _ (n % 98 + 1)]
      exact Eq.trans (add_assoc _ _ _) (add_add_add_comm _ _ _ _)

/-! ## The tiles summed are the specification's sums -/

/-- The 98 first-order tiles (49 real ones) summed are the 50000 real reactions. -/
theorem sumQ1 (c : Dev nD) (B s : ℕ) :
    ∑ r ∈ Finset.range 98, Q1 m c B s r
      = ∑ j ∈ (Finset.univ : Finset (Fin 50000)).filter (fun j => (ip1P m c j.val).toNat = s), f1 m c B j.val := by
  have hz : ∀ n, 50000 ≤ n → n < 49 * 1024 → f1 m c B n = 0 := fun n h1 _ => by
    unfold f1 k1P; rw [dif_neg (by omega), mul_zero]
  rw [← tiles_eq 49 50000 (by norm_num) (f1 m c B) (fun n => (ip1P m c n).toNat) s hz]
  rw [show (98 : ℕ) = 49 + 49 from rfl, Finset.sum_range_add]
  rw [Finset.sum_eq_zero (s := Finset.range 49) (f := fun x => Q1 m c B s (49 + x))
    (fun x _ => by unfold Q1; rw [if_neg (by omega)]), add_zero]
  refine Finset.sum_congr rfl fun r hr => ?_
  unfold Q1; rw [if_pos (Finset.mem_range.mp hr)]

/-- The 98 second-order tiles summed are the 100000 real reactions. -/
theorem sumQ2 (c : Dev nD) (B s : ℕ) :
    ∑ r ∈ Finset.range 98, Q2 m c B s r
      = ∑ j ∈ (Finset.univ : Finset (Fin 100000)).filter (fun j => (ip2P m c j.val).toNat = s), f2 m c B j.val := by
  have hz : ∀ n, 100000 ≤ n → n < 98 * 1024 → f2 m c B n = 0 := fun n h1 _ => by
    unfold f2 k2P; rw [dif_neg (by omega), mul_zero]
  exact tiles_eq 98 100000 (by norm_num) (f2 m c B) (fun n => (ip2P m c n).toNat) s hz

/-- The specification at entry (B, s) is the 98 tiles' contributions summed. -/
theorem G_tiles (c : Dev nD) (B : Fin 512) (s : Fin 1024) :
    G (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (ix2 B s)
      = ∑ r ∈ Finset.range 98, Q1 m c B.val s.val r + ∑ r ∈ Finset.range 98, Q2 m c B.val s.val r := by
  rw [sumQ1, sumQ2]
  unfold G
  refine congrArg₂ (· + ·) ?_ ?_
  · refine Finset.sum_congr (Finset.filter_congr fun j _ => ?_) fun j _ => ?_
    · unfold ip1P; rw [dif_pos j.isLt]
    · unfold term1 f1 yP ir1P k1P
      simp only [dif_pos j.isLt, dif_pos B.isLt]
  · refine Finset.sum_congr (Finset.filter_congr fun j _ => ?_) fun j _ => ?_
    · unfold ip2P; rw [dif_pos j.isLt]
    · unfold term2 f2 yP i20P i21P k2P
      simp only [dif_pos j.isLt, dif_pos B.isLt]

/-! ## The result array -/

/-- The result window's block index at point `t`: batch tile `t / 98`, the whole row. -/
theorem idx8 : ∀ t : Fin cfg0.N, win0_8.index t 0 = t.val / 98 ∧ win0_8.index t 1 = 0 :=
  (by decide +kernel : ∀ t : Fin grid0.N, win0_8.index t 0 = t.val / 98 ∧ win0_8.index t 1 = 0)

/-- What a point of the last reaction tile writes back is its block of the specification. -/
theorem flushed8_eq (c : Dev nD)
    (h : InRange (m ((c : Thread nD τ).loc main_arg2)) (m ((c : Thread nD τ).loc main_arg3))
      (m ((c : Thread nD τ).loc main_arg5)) (m ((c : Thread nD τ).loc main_arg6)) (m ((c : Thread nD τ).loc main_arg7)))
    (t : Fin cfg0.N) (hf : (cfg0.win 8).flush t = true) :
    (dats (F := Ideal) m 0 c).flushed 8 t = ((cfg0.win 8).blk t).view.read (Elt Ideal)
      (G (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8))) := by
  show (cfg0.win 8).cut (grid0.coords t) ((dats (F := Ideal) m 0 c).after 8 t) = _
  rw [after0_8]
  funext j
  obtain ⟨b, s, rfl⟩ : ∃ (b : Fin 256) (s : Fin 1024), j = ix2 b s := ⟨j 0, j 1, eq_ix2 j⟩
  rw [View.read_apply]
  have hlt : t.val / 98 * 256 + b.val < 512 := by have := t_lt t; omega
  have he : (((cfg0.win 8).blk t).view.emb (ix2 b s) : S512x1024.Idx) = ix2 (⟨t.val / 98 * 256 + b.val, hlt⟩ : Fin 512) s := by
    obtain ⟨e0, e1⟩ := idx8 t
    funext a; apply Fin.ext
    match a with
    | ⟨0, _⟩ => show win0_8.index t (0 : Fin 2) * 256 + 1 * b.val = t.val / 98 * 256 + b.val; rw [e0]; omega
    | ⟨1, _⟩ => show win0_8.index t (1 : Fin 2) * 1024 + 1 * s.val = s.val; rw [e1]; omega
  show accAt m c t.val t.isLt (ix2 b s)
    = G (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (((cfg0.win 8).blk t).view.emb (ix2 b s))
  rw [he, G_tiles, accAt_apply m c h b s t.val t.isLt, (flush0_8 t).mp hf]

/-- THE KERNEL'S VALUE: after the write-backs of all 196 points the result array holds the specification of the argument
    arrays, when the reactant indices are species ids. -/
theorem ker_eq (c : Dev nD)
    (h : InRange (m ((c : Thread nD τ).loc main_arg2)) (m ((c : Thread nD τ).loc main_arg3))
      (m ((c : Thread nD τ).loc main_arg5)) (m ((c : Thread nD τ).loc main_arg6)) (m ((c : Thread nD τ).loc main_arg7))) :
    (dats (F := Ideal) m 0 c).arrAt 8 cfg0.N
      = G (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) := by
  refine (dats (F := Ideal) m 0 c).arrAt_eq_of_cover 8 _ (flushed8_eq m c h) fun i => ?_
  obtain ⟨B, s, rfl⟩ : ∃ (B : Fin 512) (s : Fin 1024), i = ix2 B s := ⟨i 0, i 1, eq_ix2 i⟩
  have hB : B.val < 512 := B.isLt
  have hN : cfg0.N = 196 := by decide
  have htN : B.val / 256 * 98 + 97 < cfg0.N := by rw [hN]; omega
  refine ⟨⟨B.val / 256 * 98 + 97, htN⟩, (flush0_8 _).mpr (by show (B.val / 256 * 98 + 97) % 98 = 97; omega), ?_⟩
  obtain ⟨e0, e1⟩ := idx8 ⟨B.val / 256 * 98 + 97, htN⟩
  show ix2 B s ∈ ((View.whole main_v7).slice (win0_8.rect ⟨B.val / 256 * 98 + 97, htN⟩)).set
  rw [View.set_slice_whole, Rect.mem_set_unit]
  intro a
  match a with
  | ⟨0, _⟩ =>
    show win0_8.index ⟨B.val / 256 * 98 + 97, htN⟩ (0 : Fin 2) * 256 ≤ B.val
      ∧ B.val < win0_8.index ⟨B.val / 256 * 98 + 97, htN⟩ (0 : Fin 2) * 256 + 256
    rw [e0]; show (B.val / 256 * 98 + 97) / 98 * 256 ≤ B.val ∧ B.val < (B.val / 256 * 98 + 97) / 98 * 256 + 256; omega
  | ⟨1, _⟩ =>
    show win0_8.index ⟨B.val / 256 * 98 + 97, htN⟩ (1 : Fin 2) * 1024 ≤ s.val
      ∧ s.val < win0_8.index ⟨B.val / 256 * 98 + 97, htN⟩ (1 : Fin 2) * 1024 + 1024
    rw [e1]; have := s.isLt; omega

end Cert.Proof.KI

end
-- ==== Proof.RefValue.lean ====
import proofs.«415795_j59304908423466_2_alg».proof.Proof.Gen.ReferenceIdeal.Read
import proofs.«415795_j59304908423466_2_alg».proof.Proof.Spec
import Idealize.ShloMosaic.Lib.ValueIdx
import Idealize.ShloMosaic.Lib.StableHlo.Predicate
import Idealize.ShloMosaic.PureOps.Ideal.Laws
/-
  The reference's value is the specification: with every index a non-negative word the wrap of negative indices is the
  identity, a gather index below 1024 is not clamped, and the accumulating scatter adds to entry (b, s) the updates whose
  index is `s`.

  In order: the word fact and the five wrapped index arrays (each the array itself); the column gather read at an index,
  at any number of start indices; where an update of the column scatter lands, and the scatter read at an index as a sum
  along one row of the updates; the two update arrays as the specification's terms; the value.
-/

noncomputable section

open scoped BigOperators

namespace Cert.Proof.RefValue
open Cert.ReferenceIdeal Cert.ReferenceIdeal.Gen Cert.ReferenceIdeal.Read Cert.Proof.Spec
open Idealize.ShloMosaic Idealize.ShloMosaic.ValueIdx

/-! ## Words -/

/-- A non-negative word is not below zero, so the wrap of negative indices leaves it. -/
theorem wrap_id {w : BitVec 32} (hw : w.toNat < 2 ^ 31) :
    Scalar.select (IntOp.cmpi .slt w 0#32) (IntOp.addi w 1024#32) w = w := by
  have h0 : IntOp.cmpi .slt w 0#32 = 0#1 := by
    apply eq_zero_of_ne_one
    intro h1
    have := (StableHlo.Predicate.slt_iff_toNat hw (by decide)).1 h1
    simp at this
  rw [h0, select_zero]

/-- The wrapped first-order reactant indices are the indices. -/
theorem v4_eq (x : S50000.Idx → BitVec 32) (hx : ∀ j, (x j).toNat < 2 ^ 31) : val_main_v4 (F := Ideal) x = x := by
  funext i
  rw [val_main_v4_apply, val_main_v1_apply, val_main_v3_apply, val_main_v0_apply, val_main_c_apply,
    val_main_v2_apply, val_main_c_0_apply]
  exact wrap_id (hx i)

/-- The wrapped first-order product indices are the indices. -/
theorem v33_eq (x : S50000.Idx → BitVec 32) (hx : ∀ j, (x j).toNat < 2 ^ 31) : val_main_v33 (F := Ideal) x = x := by
  funext i
  rw [val_main_v33_apply, val_main_v30_apply, val_main_v32_apply, val_main_v29_apply, val_main_c_5_apply,
    val_main_v31_apply, val_main_c_6_apply]
  exact wrap_id (hx i)

/-- The wrapped second-order first-reactant indices are the indices. -/
theorem v14_eq (x : S100000.Idx → BitVec 32) (hx : ∀ j, (x j).toNat < 2 ^ 31) : val_main_v14 (F := Ideal) x = x := by
  funext i
  rw [val_main_v14_apply, val_main_v11_apply, val_main_v13_apply, val_main_v10_apply, val_main_c_1_apply,
    val_main_v12_apply, val_main_c_2_apply]
  exact wrap_id (hx i)

/-- The wrapped second-order second-reactant indices are the indices. -/
theorem v21_eq (x : S100000.Idx → BitVec 32) (hx : ∀ j, (x j).toNat < 2 ^ 31) : val_main_v21 (F := Ideal) x = x := by
  funext i
  rw [val_main_v21_apply, val_main_v18_apply, val_main_v20_apply, val_main_v17_apply, val_main_c_3_apply,
    val_main_v19_apply, val_main_c_4_apply]
  exact wrap_id (hx i)

/-- The wrapped second-order product indices are the indices. -/
theorem v40_eq (x : S100000.Idx → BitVec 32) (hx : ∀ j, (x j).toNat < 2 ^ 31) : val_main_v40 (F := Ideal) x = x := by
  funext i
  rw [val_main_v40_apply, val_main_v37_apply, val_main_v39_apply, val_main_v36_apply, val_main_c_7_apply,
    val_main_v38_apply, val_main_c_8_apply]
  exact wrap_id (hx i)

/-- The column of start indices read at row `n`. -/
theorem v5_apply (x : S50000.Idx → BitVec 32) (hx : ∀ j, (x j).toNat < 2 ^ 31) (n : Fin 50000) :
    val_main_v5 (F := Ideal) x (ix2 n 0) = x (ix1 n) := by
  rw [val_main_v5_apply, v4_eq x hx]
  congr 1
  funext a; match a with | ⟨0, _⟩ => rfl

/-! ## The gather of columns: operand [512, 1024], start indices [N, 1], result [512, N] -/

section Gather
variable {α : Type}

/-- The dimension numbers of the column gather (the row kept whole as the offset axis, the column axis collapsed and
    start-indexed, the index vector on axis 1), at any number `N` of start indices. -/
abbrev gDims (N : Nat)
    (wf : GatherDims.WF ⟨2, ![512, 1024]⟩ ⟨2, ![N, 1]⟩ ⟨2, ![512, N]⟩ [0] [1] [] [1] [] 1 ![512, 1]) :
    GatherDims ⟨2, ![512, 1024]⟩ ⟨2, ![N, 1]⟩ ⟨2, ![512, N]⟩ where
  offsetDims := [0]
  collapsedSliceDims := [1]
  operandBatchingDims := []
  startIndicesBatchingDims := []
  startIndexMap := [1]
  indexVectorDim := 1
  sliceSizes := ![512, 1]
  wf := wf

/-- THE COLUMN GATHER READ AT `(b, n)`: row `b` of the operand at the column the `n`-th start index names, read signed
    and clamped into `[0, 1023]`. -/
theorem gather_col_apply {N w : Nat}
    (wf : GatherDims.WF ⟨2, ![512, 1024]⟩ ⟨2, ![N, 1]⟩ ⟨2, ![512, N]⟩ [0] [1] [] [1] [] 1 ![512, 1])
    (x : (⟨2, ![512, 1024]⟩ : Shape).Idx → α) (idx : IVec ⟨2, ![N, 1]⟩ w) (b : Fin 512) (n : Fin N) :
    Host.gather (gDims N wf) x idx (ix2 b n)
      = x (ix2 b ⟨min (idx (ix2 n 0)).toInt.toNat 1023, by omega⟩) := by
  unfold Host.gather
  congr 1
  funext a
  refine Fin.ext ?_
  match a with
  | ⟨0, _⟩ =>
    show (gDims N wf).start (ix2 b n) idx 0 + (gDims N wf).batchCoord (ix2 b n) 0 + (gDims N wf).offCoord (ix2 b n) 0 = b.val
    rw [GatherDims.batchCoord_eq_zero _ _ _ List.not_mem_nil]
    have hs : (gDims N wf).start (ix2 b n) idx 0 = 0 := by
      unfold GatherDims.start
      rw [dif_neg (show (0 : Fin 2) ∉ ([1] : List (Fin 2)) by decide)]
    rw [hs]
    simp only [Nat.add_zero, Nat.zero_add]
    unfold GatherDims.offCoord
    rw [dif_pos ((GatherDims.mem_sKept _ _).mpr ⟨show (0 : Fin 2) ∉ ([1] : List (Fin 2)) by decide, List.not_mem_nil⟩)]
    rfl
  | ⟨1, _⟩ =>
    show (gDims N wf).start (ix2 b n) idx 1 + (gDims N wf).batchCoord (ix2 b n) 1 + (gDims N wf).offCoord (ix2 b n) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gDims N wf).startIndexMap from List.mem_singleton.mpr rfl)]
    have hsi : (gDims N wf).siIdx (ix2 b n) ⟨List.idxOf (1 : Fin 2) (gDims N wf).startIndexMap,
        List.idxOf_lt_length_iff.2 (List.mem_singleton.mpr rfl)⟩ = ix2 n 0 := by
      funext c; refine Fin.ext ?_
      match c with
      | ⟨0, _⟩ => rfl
      | ⟨1, _⟩ => rfl
    rw [hsi]
    rfl

end Gather

/-! ## The accumulating scatter of columns: operand [512, 1024], scatter indices [N, 1], updates [512, N] -/

section Scatter

/-- The dimension numbers of the column scatter (the row the window axis, the column axis inserted and indexed, the
    index vector on axis 1), at any number `N` of scatter indices. -/
abbrev sDims (N : Nat) (wf : ScatterDims.WF ⟨2, ![512, 1024]⟩ ⟨2, ![N, 1]⟩ ⟨2, ![512, N]⟩ [0] [1] [1] 1) :
    ScatterDims ⟨2, ![512, 1024]⟩ ⟨2, ![N, 1]⟩ ⟨2, ![512, N]⟩ where
  updateWindowDims := [0]
  insertedWindowDims := [1]
  scatterDimsToOperandDims := [1]
  indexVectorDim := 1
  wf := wf

/-- WHERE UPDATE `(b, n)` LANDS: at `i` exactly when `i` is in row `b` and its column is the `n`-th scatter index read
    signed (an index outside `[0, 1023]` lands nowhere). -/
theorem resultIdx_iff {N w : Nat} (wf : ScatterDims.WF ⟨2, ![512, 1024]⟩ ⟨2, ![N, 1]⟩ ⟨2, ![512, N]⟩ [0] [1] [1] 1)
    (idx : IVec ⟨2, ![N, 1]⟩ w) (b : Fin 512) (n : Fin N) (i : (⟨2, ![512, 1024]⟩ : Shape).Idx) :
    (sDims N wf).resultIdx? (ix2 b n) idx = some i ↔ i 0 = b ∧ ((i 1).val : Int) = (idx (ix2 n 0)).toInt := by
  have hs0 : (sDims N wf).start (ix2 b n) idx 0 = 0 := by
    unfold ScatterDims.start
    rw [dif_neg (show (0 : Fin 2) ∉ ([1] : List (Fin 2)) by decide)]
  have hs1 : (sDims N wf).start (ix2 b n) idx 1 = (idx (ix2 n 0)).toInt := by
    unfold ScatterDims.start
    rw [dif_pos (show (1 : Fin 2) ∈ (sDims N wf).scatterDimsToOperandDims from List.mem_singleton.mpr rfl)]
    have hsi : (sDims N wf).siIdx (ix2 b n) ⟨List.idxOf (1 : Fin 2) (sDims N wf).scatterDimsToOperandDims,
        List.idxOf_lt_length_iff.2 (List.mem_singleton.mpr rfl)⟩ = ix2 n 0 := by
      funext c; refine Fin.ext ?_
      match c with
      | ⟨0, _⟩ => rfl
      | ⟨1, _⟩ => rfl
    rw [hsi]
  have hw0 : (sDims N wf).window (ix2 b n) 0 = b.val := by
    unfold ScatterDims.window
    rw [dif_pos (show (0 : Fin 2) ∈ (⟨2, ![512, 1024]⟩ : Shape).kept ([1] : List (Fin 2)) by decide)]
    rfl
  have hw1 : (sDims N wf).window (ix2 b n) 1 = 0 := by
    unfold ScatterDims.window
    rw [dif_neg (show (1 : Fin 2) ∉ (⟨2, ![512, 1024]⟩ : Shape).kept ([1] : List (Fin 2)) by decide)]
  have hb : b.val < 512 := b.isLt
  have hi1 : (i 1).val < 1024 := idx2_lt1 i
  unfold ScatterDims.resultIdx?
  split
  · rename_i hall
    rw [Option.some.injEq]
    constructor
    · intro e
      subst e
      refine ⟨Fin.ext ?_, ?_⟩
      · show ((sDims N wf).start (ix2 b n) idx 0 + ((sDims N wf).window (ix2 b n) 0 : Nat)).toNat = b.val
        rw [hs0, hw0]; simp
      · show ((((sDims N wf).start (ix2 b n) idx 1 + ((sDims N wf).window (ix2 b n) 1 : Nat)).toNat : Nat) : Int) = _
        have h1 := (hall 1).1
        rw [hs1, hw1] at h1 ⊢
        simp at h1 ⊢
        omega
    · rintro ⟨h0, h1⟩
      funext a; refine Fin.ext ?_
      match a with
      | ⟨0, _⟩ =>
        show ((sDims N wf).start (ix2 b n) idx 0 + ((sDims N wf).window (ix2 b n) 0 : Nat)).toNat = (i 0).val
        rw [hs0, hw0, h0]; simp
      | ⟨1, _⟩ =>
        show ((sDims N wf).start (ix2 b n) idx 1 + ((sDims N wf).window (ix2 b n) 1 : Nat)).toNat = (i 1).val
        rw [hs1, hw1, ← h1]; simp
  · rename_i hnot
    constructor
    · intro e; exact absurd e (by simp)
    · rintro ⟨h0, h1⟩
      exfalso; apply hnot
      rw [Fin.forall_fin_two]
      rw [hs0, hw0, hs1, hw1, ← h1]
      refine ⟨⟨by omega, ?_⟩, ⟨by omega, ?_⟩⟩
      · show (0 : Int) + (b.val : Int) < ((512 : Nat) : Int)
        omega
      · show ((i 1).val : Int) + ((0 : Nat) : Int) < ((1024 : Nat) : Int)
        omega

end Scatter

/-! ## The accumulating scatter read at an index -/

/-- THE ACCUMULATING COLUMN SCATTER READ AT `(b0, s0)`, every scatter index a non-negative word: the operand there plus
    the updates of row `b0` whose index is the column `s0`. -/
theorem scatterAdd_col_apply {N : Nat} (wf : ScatterDims.WF ⟨2, ![512, 1024]⟩ ⟨2, ![N, 1]⟩ ⟨2, ![512, N]⟩ [0] [1] [1] 1)
    (x : (⟨2, ![512, 1024]⟩ : Shape).Idx → EReal) (idx : IVec ⟨2, ![N, 1]⟩ 32)
    (upd : (⟨2, ![512, N]⟩ : Shape).Idx → EReal) (hidx : ∀ n : Fin N, (idx (ix2 n 0)).toNat < 2 ^ 31)
    (b0 : Fin 512) (s0 : Fin 1024) :
    Ideal.hostScatterAdd (sDims N wf) x idx upd (ix2 b0 s0)
      = x (ix2 b0 s0) + ∑ n ∈ Finset.univ.filter (fun n : Fin N => (idx (ix2 n 0)).toNat = s0.val), upd (ix2 b0 n) := by
  have key : ∀ (b : Fin 512) (n : Fin N),
      (sDims N wf).resultIdx? (ix2 b n) idx = some (ix2 b0 s0) ↔ b0 = b ∧ (idx (ix2 n 0)).toNat = s0.val := by
    intro b n
    refine (resultIdx_iff wf idx b n (ix2 b0 s0)).trans ?_
    rw [StableHlo.Predicate.toInt_eq_toNat_of_lt (hidx n)]
    show b0 = b ∧ (s0.val : Int) = ((idx (ix2 n 0)).toNat : Int) ↔ b0 = b ∧ (idx (ix2 n 0)).toNat = s0.val
    constructor
    · rintro ⟨h1, h2⟩; exact ⟨h1, by omega⟩
    · rintro ⟨h1, h2⟩; exact ⟨h1, by omega⟩
  unfold Ideal.hostScatterAdd
  congr 1
  symm
  refine Finset.sum_bij (fun n _ => (ix2 b0 n : (⟨2, ![512, N]⟩ : Shape).Idx)) ?_ ?_ ?_ ?_
  · intro n hn
    exact Finset.mem_filter.2 ⟨Finset.mem_univ _, (key b0 n).2 ⟨rfl, (Finset.mem_filter.1 hn).2⟩⟩
  · intro n1 _ n2 _ e
    exact congrFun e 1
  · intro j hj
    obtain ⟨b, n, rfl⟩ : ∃ (b : Fin 512) (n : Fin N), j = ix2 b n := ⟨j 0, j 1, eq_ix2 j⟩
    obtain ⟨h0, h1⟩ := (key b n).1 (Finset.mem_filter.1 hj).2
    subst h0
    exact ⟨n, Finset.mem_filter.2 ⟨Finset.mem_univ _, h1⟩, rfl⟩
  · intro n _; rfl

/-! ## The index columns, the updates, and the reference's value -/

/-- The column of first-order product indices read at row `n`. -/
theorem v34_apply (x : S50000.Idx → BitVec 32) (hx : ∀ j, (x j).toNat < 2 ^ 31) (n : Fin 50000) :
    val_main_v34 (F := Ideal) x (ix2 n 0) = x (ix1 n) := by
  rw [val_main_v34_apply, v33_eq x hx]
  congr 1
  funext a; match a with | ⟨0, _⟩ => rfl

/-- The column of second-order first-reactant indices read at row `n`. -/
theorem v15_apply (x : S100000.Idx → BitVec 32) (hx : ∀ j, (x j).toNat < 2 ^ 31) (n : Fin 100000) :
    val_main_v15 (F := Ideal) x (ix2 n 0) = x (ix1 n) := by
  rw [val_main_v15_apply, v14_eq x hx]
  congr 1
  funext a; match a with | ⟨0, _⟩ => rfl

/-- The column of second-order second-reactant indices read at row `n`. -/
theorem v22_apply (x : S100000.Idx → BitVec 32) (hx : ∀ j, (x j).toNat < 2 ^ 31) (n : Fin 100000) :
    val_main_v22 (F := Ideal) x (ix2 n 0) = x (ix1 n) := by
  rw [val_main_v22_apply, v21_eq x hx]
  congr 1
  funext a; match a with | ⟨0, _⟩ => rfl

/-- The column of second-order product indices read at row `n`. -/
theorem v41_apply (x : S100000.Idx → BitVec 32) (hx : ∀ j, (x j).toNat < 2 ^ 31) (n : Fin 100000) :
    val_main_v41 (F := Ideal) x (ix2 n 0) = x (ix1 n) := by
  rw [val_main_v41_apply, v40_eq x hx]
  congr 1
  funext a; match a with | ⟨0, _⟩ => rfl

/-- A species word below 1024, read signed and clamped into `[0, 1023]`, is its column. -/
theorem clamp_col {w : BitVec 32} (hw : w.toNat < 1024) (hlt : min w.toInt.toNat 1023 < 1024) :
    (⟨min w.toInt.toNat 1023, hlt⟩ : Fin 1024) = col w := by
  apply Fin.ext
  rw [col_val_of_lt hw]
  show min w.toInt.toNat 1023 = w.toNat
  rw [StableHlo.Predicate.toInt_eq_toNat_of_lt (by omega), Int.toNat_natCast]
  omega

/-- The first-order update `(b, n)` is reaction `n`'s contribution to row `b`. -/
theorem v9_apply (y : S512x1024.Idx → EReal) (ir1 : S50000.Idx → BitVec 32) (k1 : S50000.Idx → EReal)
    (hir : ∀ j, (ir1 j).toNat < 1024) (b : Fin 512) (n : Fin 50000) :
    val_main_v9 (F := Ideal) y ir1 k1 (ix2 b n) = term1 y ir1 k1 b n := by
  rw [val_main_v9_apply, Ideal.mulf_def]
  unfold term1
  congr 1
  · show Host.gather (gDims 50000 Facts₀.gather_S512x1024_S50000x1_S512x50000_0_1_n_n_1_1_5121_wf) y
      (val_main_v5 (F := Ideal) ir1) (ix2 b n) = _
    rw [gather_col_apply]
    congr 2
    have e := v5_apply ir1 (fun j => by have := hir j; omega) n
    refine (Fin.ext ?_ : _ = col (ir1 (ix1 n)))
    rw [← clamp_col (hir (ix1 n)) (by omega)]
    exact congrArg (fun w : BitVec 32 => min w.toInt.toNat 1023) e
  · rw [val_main_v8_apply, val_main_v7_apply]
    congr 1
    funext a; match a with | ⟨0, _⟩ => rfl

/-- The second-order update `(b, n)` is reaction `n`'s contribution to row `b`. -/
theorem v27_apply (y : S512x1024.Idx → EReal) (i20 i21 : S100000.Idx → BitVec 32) (k2 : S100000.Idx → EReal)
    (h0 : ∀ j, (i20 j).toNat < 1024) (h1 : ∀ j, (i21 j).toNat < 1024) (b : Fin 512) (n : Fin 100000) :
    val_main_v27 (F := Ideal) y i20 i21 k2 (ix2 b n) = term2 y i20 i21 k2 b n := by
  rw [val_main_v27_apply, Ideal.mulf_def, val_main_v24_apply, Ideal.mulf_def]
  unfold term2
  congr 1
  · congr 1
    · show Host.gather (gDims 100000 Facts₀.gather_S512x1024_S100000x1_S512x100000_0_1_n_n_1_1_5121_wf) y
        (val_main_v15 (F := Ideal) i20) (ix2 b n) = _
      rw [gather_col_apply]
      congr 2
      have e := v15_apply i20 (fun j => by have := h0 j; omega) n
      refine (Fin.ext ?_ : _ = col (i20 (ix1 n)))
      rw [← clamp_col (h0 (ix1 n)) (by omega)]
      exact congrArg (fun w : BitVec 32 => min w.toInt.toNat 1023) e
    · show Host.gather (gDims 100000 Facts₀.gather_S512x1024_S100000x1_S512x100000_0_1_n_n_1_1_5121_wf) y
        (val_main_v22 (F := Ideal) i21) (ix2 b n) = _
      rw [gather_col_apply]
      congr 2
      have e := v22_apply i21 (fun j => by have := h1 j; omega) n
      refine (Fin.ext ?_ : _ = col (i21 (ix1 n)))
      rw [← clamp_col (h1 (ix1 n)) (by omega)]
      exact congrArg (fun w : BitVec 32 => min w.toInt.toNat 1023) e
  · rw [val_main_v26_apply, val_main_v25_apply]
    congr 1
    funext a; match a with | ⟨0, _⟩ => rfl

/-- THE REFERENCE'S VALUE at the ideal instance, under the index facts. -/
theorem ref_eq (y : S512x1024.Idx → EReal) (ir1 ip1 : S50000.Idx → BitVec 32) (k1 : S50000.Idx → EReal)
    (i20 i21 ip2 : S100000.Idx → BitVec 32) (k2 : S100000.Idx → EReal) (h : InRange ir1 ip1 i20 i21 ip2) :
    val_main_v42 (F := Ideal) y ir1 ip1 k1 i20 i21 ip2 k2 = G y ir1 ip1 k1 i20 i21 ip2 k2 := by
  funext i
  obtain ⟨b0, s0, rfl⟩ : ∃ (b0 : Fin 512) (s0 : Fin 1024), i = ix2 b0 s0 := ⟨i 0, i 1, eq_ix2 i⟩
  have hz : (FloatOps.ofBits (F := Ideal) FTy.f32 0x00000000#32) = (0 : EReal) := Ideal.ofBits_zero_f32
  -- the first scatter: the zero array plus the first-order contributions landing on `s0`
  have e35 : val_main_v35 (F := Ideal) y ir1 ip1 k1 (ix2 b0 s0)
      = ∑ n ∈ Finset.univ.filter (fun n : Fin 50000 => (ip1 (ix1 n)).toNat = s0.val), term1 y ir1 k1 b0 n := by
    show Ideal.hostScatterAdd (sDims 50000 Facts₀.scatter_S512x1024_S50000x1_S512x50000_0_1_1_1_wf)
      (val_main_v28 (F := Ideal)) (val_main_v34 (F := Ideal) ip1) (val_main_v9 (F := Ideal) y ir1 k1) (ix2 b0 s0) = _
    rw [scatterAdd_col_apply _ _ _ _ (fun n => by rw [v34_apply ip1 h.ip1 n]; exact h.ip1 _),
      val_main_v28_apply, val_main_cst_apply, hz, zero_add]
    exact Finset.sum_congr (Finset.filter_congr fun n _ => by rw [v34_apply ip1 h.ip1 n])
      (fun n _ => v9_apply y ir1 k1 h.ir1 b0 n)
  -- the second-order contributions landing on `s0`
  have e27 : (∑ n ∈ Finset.univ.filter (fun n : Fin 100000 => (val_main_v41 (F := Ideal) ip2 (ix2 n 0)).toNat = s0.val),
        val_main_v27 (F := Ideal) y i20 i21 k2 (ix2 b0 n))
      = ∑ n ∈ Finset.univ.filter (fun n : Fin 100000 => (ip2 (ix1 n)).toNat = s0.val), term2 y i20 i21 k2 b0 n :=
    Finset.sum_congr (Finset.filter_congr fun n _ => by rw [v41_apply ip2 h.ip2 n])
      (fun n _ => v27_apply y i20 i21 k2 h.i20 h.i21 b0 n)
  -- the second scatter adds them to the first
  show Ideal.hostScatterAdd (sDims 100000 Facts₀.scatter_S512x1024_S100000x1_S512x100000_0_1_1_1_wf)
    (val_main_v35 (F := Ideal) y ir1 ip1 k1) (val_main_v41 (F := Ideal) ip2) (val_main_v27 (F := Ideal) y i20 i21 k2)
    (ix2 b0 s0) = _
  rw [scatterAdd_col_apply _ _ _ _ (fun n => by rw [v41_apply ip2 h.ip2 n]; exact h.ip2 _), e35, e27]
  rfl

end Cert.Proof.RefValue

end
-- ==== Proof.PreDecode.lean ====
import proofs.«415795_j59304908423466_2_alg».proof.Pre_finite_inputs
import proofs.«415795_j59304908423466_2_alg».proof.Proof.Gen.Pre_finite_inputs
import proofs.«415795_j59304908423466_2_alg».proof.Proof.Spec
import Idealize.ShloMosaic.Lib.ReduceAll
import Idealize.ShloMosaic.Lib.StableHlo.Predicate
/-
  The precondition read: where the printed predicate is all ones, every reactant index is a species id and every
  product index is non-negative.
-/

noncomputable section

open scoped BigOperators

namespace Cert.Proof.PreDecode
open Cert.Pre_finite_inputs Cert.Proof.Spec
open Idealize.ShloMosaic Idealize.ShloMosaic.ValueIdx

/-- The rank-0 shape has one index. -/
instance subsingleton_S_ : Subsingleton S_.Idx := ⟨fun a b => funext fun d => d.elim0⟩

/-- A word that tests non-negative signed has its top bit clear. -/
theorem toNat_lt_of_sge (w : BitVec 32) (h0 : IntOp.cmpi .sge w 0#32 = 1#1) : w.toNat < 2 ^ 31 := by
  rw [IntOp.cmpi_sge, show (0#32 : BitVec 32).toInt = 0 from by decide, BitVec.toInt_pos_iff] at h0
  omega

/-- A word in [0, 1024) signed is below 1024 unsigned. -/
theorem toNat_lt_of_sge_slt (w : BitVec 32) (h0 : IntOp.cmpi .sge w 0#32 = 1#1)
    (h1 : IntOp.cmpi .slt w 1024#32 = 1#1) : w.toNat < 1024 := by
  have hw := toNat_lt_of_sge w h0
  rw [IntOp.cmpi_slt, StableHlo.Predicate.toInt_eq_toNat_of_lt hw,
    show (1024#32 : BitVec 32).toInt = 1024 from by decide] at h1
  omega

/-- The index facts from the precondition, at any float instance. -/
theorem inRange_of_pre {F : FTy → Type} [FloatOps F] [Cert.Pre_finite_inputs.Facts]
    (a0 : FVec F S_ .f32) (a1 : FVec F S512x1024 .f32) (a2 a3 : IVec S50000 32) (a4 : FVec F S50000 .f32)
    (a5 a6 a7 : IVec S100000 32) (a8 : FVec F S100000 .f32)
    (h : Cert.Pre_finite_inputs.fn (F := F) a0 a1 a2 a3 a4 a5 a6 a7 a8 = fun _ => 1#1) :
    InRange a2 a3 a5 a6 a7 := by
  have h0 := congrFun h ValueIdx.ix0
  dsimp only [fn, fn_part1, fn_part2] at h0
  simp only [andi, IntOp.andi_eq_one] at h0
  obtain ⟨⟨⟨⟨⟨-, e2⟩, e3⟩, e5⟩, e6⟩, e7⟩ := h0
  -- each all-reduction that is one is one at every element; an element is the conjunction of the two compares of the word there
  have r2 := fun j => Host.reduce_andi_all _ _ _ _ _ e2 j
  have r3 := fun j => Host.reduce_andi_all _ _ _ _ _ e3 j
  have r5 := fun j => Host.reduce_andi_all _ _ _ _ _ e5 j
  have r6 := fun j => Host.reduce_andi_all _ _ _ _ _ e6 j
  have r7 := fun j => Host.reduce_andi_all _ _ _ _ _ e7 j
  simp only [andi, cmpi, broadcastInDim, constantI, IntOp.andi_eq_one] at r2 r3 r5 r6 r7
  exact ⟨fun j => toNat_lt_of_sge_slt _ (r2 j).1 (r2 j).2, fun j => toNat_lt_of_sge _ (r3 j),
    fun j => toNat_lt_of_sge_slt _ (r5 j).1 (r5 j).2, fun j => toNat_lt_of_sge_slt _ (r6 j).1 (r6 j).2,
    fun j => toNat_lt_of_sge _ (r7 j)⟩

end Cert.Proof.PreDecode

end
-- ==== Proof.lean ====
/-
  The certificate of a fused reaction-network kernel against its jnp reference, over the extended reals.

  The programs.  `y` is a [512, 1024] array of species abundances (batch row, species).  50000 first-order reactions each
  read one species, scale by a rate and add to a product species; 100000 second-order reactions each multiply two species'
  abundances and a rate and add to a product species.  The reference gathers the reactant columns, multiplies, and
  scatter-adds into a zero array.  The kernel walks a (2, 98) grid — two batch tiles of 256 rows, 98 reaction tiles of
  1024 reactions, the index and rate arrays zero-padded to 98 · 1024 — and does each tile's gather and scatter as products
  with one-hot matrices built by comparing an iota with the tile's indices, accumulating in a scratch block that is reset at
  the first reaction tile and copied to the result's block at the last.

  The mathematics.  A row times a one-hot column is a selection (every other term is a product with zero), so a tile's
  gather is the reactant's abundance (times the rate folded into the one-hot) when the index is a species id, and its
  scatter adds to species s exactly the tile's contributions whose product index is s; the padded reactions have rate zero
  and contribute zero; summing the tiles in the kernel's order or all at once is the same sum in a commutative monoid, and
  y₀ · (y₁ · k) = (y₀ · y₁) · k.  None of this needs finiteness.  What it needs is the index domain the precondition adds:
  a reactant index outside [0, 1024) is wrapped or clamped by the reference's gather and matches no one-hot row in the
  kernel, and a negative product index is wrapped by the reference and dropped by the kernel; a product index of 1024 or
  more is dropped by both.

  The modules.  Spec: the result as one function `G` of the arguments, and the index facts.  SpecAlg: the sums.
  PreDecode: the index facts from the printed precondition.  RefValue: the reference's value is `G`.  KI/Data, KI/Body:
  the idealized kernel's accumulator point by point, its body in the four cases of its conditions, the frame run (K/ the
  same for the word-level program).  KI/Pay, KI/Pads, KI/Fold: one point's update at an entry, the padded arrays and the
  blocks, and the result array after the run is `G`.
-/
import proofs.«415795_j59304908423466_2_alg».proof.Defs
import proofs.«415795_j59304908423466_2_alg».proof.Proof.Gen.Kernel
import proofs.«415795_j59304908423466_2_alg».proof.Proof.Gen.KernelIdeal
import proofs.«415795_j59304908423466_2_alg».proof.Proof.Gen.ReferenceIdeal
import proofs.«415795_j59304908423466_2_alg».proof.Proof.Gen.Pre_finite_inputs
import proofs.«415795_j59304908423466_2_alg».proof.Proof.K.Body
import proofs.«415795_j59304908423466_2_alg».proof.Proof.KI.Body
import proofs.«415795_j59304908423466_2_alg».proof.Proof.KI.Fold
import proofs.«415795_j59304908423466_2_alg».proof.Proof.RefValue
import proofs.«415795_j59304908423466_2_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Proof.K.frame m ρ

theorem frame_ki : Cert.frame_KernelIdeal := fun m ρ _ => Cert.Proof.KI.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal instance. -/
theorem preserves : Cert.preserves_Kernel_KernelIdeal := trivial

/-- Both programs end with the specification of the (agreeing) arguments in their result arrays. -/
theorem algebraic : Cert.algebraic_KernelIdeal_ReferenceIdeal := by
  intro m ρ m' ρ' hpre hagree
  have hR := fun c => Cert.Proof.PreDecode.inRange_of_pre _ _ _ _ _ _ _ _ _ (hpre c)
  refine ⟨fun c => Cert.Proof.Spec.G
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨((h c).1).trans (Cert.Proof.KI.ker_eq m c (hR c)), (h c).2⟩)
      (Cert.Proof.KI.run_value (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8⟩ := hagree c
    rw [(h c).1, Cert.ReferenceIdeal.Read.val_main_v42_eq, e1, e2, e3, e4, e5, e6, e7, e8]
    exact Cert.Proof.RefValue.ref_eq _ _ _ _ _ _ _ _ (hR c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
